-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2 : Shape := ⟨2, ![16384, 2]⟩
abbrev S16384 : Shape := ⟨1, ![16384]⟩
abbrev S_ : Shape := ⟨0, ![]⟩

class Facts : Prop where
  bcast_S_S16384x2 : S_.BroadcastsInDim S16384x2 (![] : Fin 0 → Fin S16384x2.rank)
  reducesTo_S16384x2_S_d0_1 : S16384x2.ReducesTo [0, 1] S_
  h_S_ : 0 < S_.numel

variable [Facts]

def fn {F : FTy → Type} [FloatOps F] (main_arg0 : FVec F S16384x2 .f32) (main_arg1 : IVec S16384 1) : IVec S_ 1 :=
  let main_v0 : FVec F S16384x2 .f32 := Host.absf main_arg0
  let main_cst : FVec F S_ .f32 := constant S_ .f32 0x7F800000#32
  let main_v1 : FVec F S16384x2 .f32 := broadcastInDim S16384x2 ![] bcast_S_S16384x2 main_cst
  let main_v2 : IVec S16384x2 1 := cmpf .olt main_v0 main_v1
  let main_c : IVec S_ 1 := constantI S_ 1 1#1
  let main_v3 : IVec S_ 1 := (fun x v => Host.reduce IntOp.andi x v reducesTo_S16384x2_S_d0_1 h_S_) main_v2 main_c
  main_v3
-- ==== Kernel.lean ====
abbrev S16384x2 : Shape := ⟨2, ![16384, 2]⟩
abbrev S16384 : Shape := ⟨1, ![16384]⟩
abbrev S16384x1 : Shape := ⟨2, ![16384, 1]⟩
abbrev S_ : Shape := ⟨0, ![]⟩
abbrev S1x1 : Shape := ⟨2, ![1, 1]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S1 : Shape := ⟨1, ![1]⟩

abbrev nBuf : Space → Nat
  | .hbm => 29
  | .vmem => 9
  | .smem => 0
  | _ => 0

abbrev bufTy : (tb : Table) → Fin (tcTables nBuf tb) → BufTy
  | .hbm, ⟨0, _⟩ => ⟨S16384x2, .f32⟩
  | .hbm, ⟨1, _⟩ => ⟨S16384, .i1⟩
  | .hbm, ⟨2, _⟩ => ⟨S16384x1, .f32⟩
  | .hbm, ⟨3, _⟩ => ⟨S16384, .f32⟩
  | .hbm, ⟨4, _⟩ => ⟨S16384x1, .f32⟩
  | .hbm, ⟨5, _⟩ => ⟨S16384, .f32⟩
  | .hbm, ⟨6, _⟩ => ⟨S16384, .f32⟩
  | .hbm, ⟨7, _⟩ => ⟨S16384, .f32⟩
  | .hbm, ⟨8, _⟩ => ⟨S_, .f32⟩
  | .hbm, ⟨9, _⟩ => ⟨S16384, .f32⟩
  | .hbm, ⟨10, _⟩ => ⟨S16384, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .i1⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S1024, .f32⟩
  | .local _ .vmem, ⟨1, _⟩ => ⟨S1024, .f32⟩
  | .local _ .vmem, ⟨2, _⟩ => ⟨S1024, .f32⟩
  | .local _ .vmem, ⟨3, _⟩ => ⟨S1024, .f32⟩
  | .local _ .vmem, ⟨4, _⟩ => ⟨S1024, .f32⟩
  | .local _ .vmem, ⟨5, _⟩ => ⟨S1024, .f32⟩
  | .local _ .vmem, ⟨6, _⟩ => ⟨S1024, .f32⟩
  | .local _ .vmem, ⟨7, _⟩ => ⟨S1024, .f32⟩
  | .local _ .vmem, ⟨8, _⟩ => ⟨S1x1, .f32⟩
  | _, _ => ⟨S16384x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_call1_v0 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![16, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  slices_S16384x2_S16384x1_0_1 : S16384x2.Slices ![0, 1] S16384x1
  shapeCasts_S16384x1_S16384 : S16384x1.ShapeCasts S16384
  slices_S16384x2_S16384x1_0_0 : S16384x2.Slices ![0, 0] S16384x1
  bcast_S_S16384 : S_.BroadcastsInDim S16384 (![] : Fin 0 → Fin S16384.rank)
  reducesTo_S16384_S_d0 : S16384.ReducesTo [0] S_
  h_S_ : 0 < S_.numel
  inb_S1x1_S1x1_0_0 : ∀ a, (![0, 0] : Fin 2 → Nat) a + S1x1.size a ≤ S1x1.size a
  h_S1x1 : 0 < S1x1.numel
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  shapeCasts_S1024_S1024x1 : S1024.ShapeCasts S1024x1
  broadcasts_S1x1024_S1024x1024 : S1x1024.Broadcasts S1024x1024
  broadcasts_S1024x1_S1024x1024 : S1024x1.Broadcasts S1024x1024
  reduces_S1024x1024_S1024 : S1024x1024.Reduces [1] S1024
  reduces_S1x1024_S1 : S1x1024.Reduces [1] S1
  shapeCasts_S1_S1x1 : S1.ShapeCasts S1x1
  inpos_S1x1_p0_0 : ∀ a, (![0, 0] : Fin 2 → Nat) a < S1x1.size a
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024.size a ≤ S16384.size a
  hwx0_0 : ∀ i : grid0.Coords, EltTy.bits .f32 = 32 ∨ (Rect.block (s := S16384) S1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S16384.size a
  hwx0_1 : ∀ i : grid0.Coords, EltTy.bits .f32 = 32 ∨ (Rect.block (s := S16384) S1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S16384.size a
  hwx0_2 : ∀ i : grid0.Coords, EltTy.bits .f32 = 32 ∨ (Rect.block (s := S16384) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S16384.size a
  hwx0_3 : ∀ i : grid0.Coords, EltTy.bits .f32 = 32 ∨ (Rect.block (s := S16384) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_v7) S1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x2 : Shape := ⟨2, ![16384, 2]⟩
abbrev S16384 : Shape := ⟨1, ![16384]⟩
abbrev S16384x1 : Shape := ⟨2, ![16384, 1]⟩
abbrev S_ : Shape := ⟨0, ![]⟩
abbrev S1x16384 : Shape := ⟨2, ![1, 16384]⟩
abbrev S16384x16384 : Shape := ⟨2, ![16384, 16384]⟩

abbrev nBuf : Space → Nat
  | .hbm => 48
  | .vmem => 0
  | .smem => 0
  | _ => 0

abbrev bufTy : (tb : Table) → Fin (tcTables nBuf tb) → BufTy
  | .hbm, ⟨0, _⟩ => ⟨S16384x2, .f32⟩
  | .hbm, ⟨1, _⟩ => ⟨S16384, .i1⟩
  | .hbm, ⟨2, _⟩ => ⟨S16384x1, .f32⟩
  | .hbm, ⟨3, _⟩ => ⟨S16384, .f32⟩
  | .hbm, ⟨4, _⟩ => ⟨S16384x1, .f32⟩
  | .hbm, ⟨5, _⟩ => ⟨S16384, .f32⟩
  | .hbm, ⟨6, _⟩ => ⟨S16384, .f32⟩
  | .hbm, ⟨7, _⟩ => ⟨S16384, .f32⟩
  | .hbm, ⟨8, _⟩ => ⟨S_, .f32⟩
  | .hbm, ⟨9, _⟩ => ⟨S16384, .f32⟩
  | .hbm, ⟨10, _⟩ => ⟨S16384, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x16384, .f32⟩
  | .hbm, ⟨16, _⟩ => ⟨S16384x1, .f32⟩
  | .hbm, ⟨17, _⟩ => ⟨S16384x16384, .f32⟩
  | .hbm, ⟨18, _⟩ => ⟨S16384x16384, .f32⟩
  | .hbm, ⟨19, _⟩ => ⟨S16384x16384, .f32⟩
  | .hbm, ⟨20, _⟩ => ⟨S16384x1, .f32⟩
  | .hbm, ⟨21, _⟩ => ⟨S1x16384, .f32⟩
  | .hbm, ⟨22, _⟩ => ⟨S16384x16384, .f32⟩
  | .hbm, ⟨23, _⟩ => ⟨S16384x16384, .f32⟩
  | .hbm, ⟨24, _⟩ => ⟨S16384x16384, .f32⟩
  | .hbm, ⟨25, _⟩ => ⟨S16384x16384, .f32⟩
  | .hbm, ⟨26, _⟩ => ⟨S16384x16384, .f32⟩
  | .hbm, ⟨27, _⟩ => ⟨S_, .f32⟩
  | .hbm, ⟨28, _⟩ => ⟨S16384x16384, .f32⟩
  | .hbm, ⟨29, _⟩ => ⟨S16384x16384, .f32⟩
  | .hbm, ⟨30, _⟩ => ⟨S_, .f32⟩
  | .hbm, ⟨31, _⟩ => ⟨S16384x16384, .f32⟩
  | .hbm, ⟨32, _⟩ => ⟨S16384x16384, .f32⟩
  | .hbm, ⟨33, _⟩ => ⟨S16384x16384, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S16384x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_4 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_cst_6 : Ref sig .tc := ⟨.hbm, 39, rfl⟩
abbrev main_call0_v0 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_cst_8 : Ref sig .tc := ⟨.hbm, 45, rfl⟩
abbrev main_call1_v0 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  slices_S16384x2_S16384x1_0_1 : S16384x2.Slices ![0, 1] S16384x1
  shapeCasts_S16384x1_S16384 : S16384x1.ShapeCasts S16384
  slices_S16384x2_S16384x1_0_0 : S16384x2.Slices ![0, 0] S16384x1
  bcast_S_S16384 : S_.BroadcastsInDim S16384 (![] : Fin 0 → Fin S16384.rank)
  reducesTo_S16384_S_d0 : S16384.ReducesTo [0] S_
  h_S_ : 0 < S_.numel
  bcast_S16384_S1x16384_1 : S16384.BroadcastsInDim S1x16384 (![1] : Fin 1 → Fin S1x16384.rank)
  bcast_S16384_S16384x1_0 : S16384.BroadcastsInDim S16384x1 (![0] : Fin 1 → Fin S16384x1.rank)
  bcast_S1x16384_S16384x16384_0_1 : S1x16384.BroadcastsInDim S16384x16384 (![0, 1] : Fin 2 → Fin S16384x16384.rank)
  bcast_S16384x1_S16384x16384_0_1 : S16384x1.BroadcastsInDim S16384x16384 (![0, 1] : Fin 2 → Fin S16384x16384.rank)
  bcast_S_S16384x16384 : S_.BroadcastsInDim S16384x16384 (![] : Fin 0 → Fin S16384x16384.rank)
  reducesTo_S16384x16384_S_d0_1 : S16384x16384.ReducesTo [0, 1] S_

variable [Facts₀]

class Facts : Prop extends Facts₀ where

variable [Facts]
-- ==== Proof.K.Data.lean ====
/-
  The pairwise soft-AUC kernel: what its one pipeline stages and what its body leaves, point by point.

  The grid is 16 × 16, point t = 16·i + j. Windows 0 and 2 (the "negative" mask and the scores of the
  ROWS, block i) and windows 1 and 3 (the "positive" mask and the scores of the COLUMNS, block j) are
  inputs; windows 2 and 3 read ONE array (the scores), at different blocks. Window 4 is the 1 × 1
  output, the same block at every point, written back after the last point only: it is the
  accumulator. At point 0 the body stores zero into it; at every point it then adds the point's
  partial sum  Σ_r Σ_c logistic(s_col c − s_row r) · (neg r · pos c)  to what the buffer holds.
  So after point n the buffer holds  acc n = pay2 (blocks at n) (acc (n−1)),  acc 0 = pay2 (blocks at 0) zero,
  with pay2 the body's one arithmetic term (the skeleton's second payload) and zero its first.
-/
import proofs.«166591_j1717986918748_1_alg».proof.Proof.Gen.Kernel.Launch
import proofs.«166591_j1717986918748_1_alg».proof.Proof.Gen.Kernel.Skeleton
import proofs.«166591_j1717986918748_1_alg».proof.Proof.Gen.Kernel.Points
import Idealize.ShloMosaic.Lib.Pipeline.FrameBody

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The arrays as the region finds them -/

/-- Core c's buffers at launch, as a valuation of its references. -/
abbrev V₀ (c : Dev nD) : Valuation τ sig (Elt F) := fun b => m ((c : Dev nD), b)

/-- Core c's buffers when the region is entered: the thirteen host operations before it have run
    (the two score columns sliced and subtracted, the label mask converted, its complement, the two counts). -/
def V (c : Dev nD) (b : Ref sig .tc) : Buf (Elt F) ((c : Thread nD τ).loc b) := StableHlo.after hostOps0 (V₀ m c) b

theorem V_eq (c : Dev nD) (b : Ref sig .tc) : V m c b = StableHlo.after hostOps0 (V₀ m c) b := rfl

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's one branch: "is this the first point?" -/

/-- The condition of the body's conditional, from the grid coordinates: both are zero. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at point 0 only: decided over the 256 points. -/
theorem isFirst_iff : ∀ t : Fin cfg0.N, isFirst (grid0.coords t) ↔ t.val = 0 :=
  (by decide +kernel : ∀ t : Fin grid0.N, isFirst (grid0.coords t) ↔ t.val = 0)

/-! ## The accumulator -/

/-- What the output's staging buffer holds after the body at point n: the body's sum term of the
    point's four input blocks, over zero at the first point and over what the point before left otherwise. -/
def acc (c : Dev nD) : (n : ℕ) → n < cfg0.N → Vec F S1x1 .f32
  | 0, h => k0_pay2 (iblk m c 2 ⟨0, h⟩) (iblk m c 3 ⟨0, h⟩) (iblk m c 0 ⟨0, h⟩) (iblk m c 1 ⟨0, h⟩) (k0_pay1 (F := F))
  | n + 1, h => k0_pay2 (iblk m c 2 ⟨n + 1, h⟩) (iblk m c 3 ⟨n + 1, h⟩) (iblk m c 0 ⟨n + 1, h⟩) (iblk m c 1 ⟨n + 1, h⟩)
      (acc c n (Nat.lt_of_succ_lt h))

theorem acc_zero (c : Dev nD) (h : 0 < cfg0.N) :
    acc m c 0 h = k0_pay2 (iblk m c 2 ⟨0, h⟩) (iblk m c 3 ⟨0, h⟩) (iblk m c 0 ⟨0, h⟩) (iblk m c 1 ⟨0, h⟩) (k0_pay1 (F := F)) := rfl

theorem acc_succ (c : Dev nD) (n : ℕ) (h : n + 1 < cfg0.N) :
    acc m c (n + 1) h = k0_pay2 (iblk m c 2 ⟨n + 1, h⟩) (iblk m c 3 ⟨n + 1, h⟩) (iblk m c 0 ⟨n + 1, h⟩) (iblk m c 1 ⟨n + 1, h⟩)
      (acc m c n (Nat.lt_of_succ_lt h)) := rfl

/-! ## The pipeline's proof data -/

/-- The proof data on core c: the arrays as the region finds them; after the body each input's buffer at its
    block and the output's at the accumulator; the invariant the scoped buffers no window stages; nothing owed;
    the two windows on the scores array a half share each, every other input the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => acc m c t.val t.isLt
  Φ _ := Pipeline.scopedRest (Ix := Unit) (Name := ℕ) (U := UR sig nD τ) (Lvl := ℕ) (Val := Elt F) spec0 c
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = acc m c t.val t.isLt := by dsimp only [dats]

theorem Φ_eq (c : Dev nD) (t : Fin (cfg0.N + 1)) :
    (dats m 0 c).Φ t = Pipeline.scopedRest (Ix := Unit) (Name := ℕ) (U := UR sig nD τ) (Lvl := ℕ) (Val := Elt F) spec0 c := rfl

theorem owed_eq (c : Dev nD) (t : Fin (cfg0.N + 1)) : (dats m 0 c).owed t = 0 := rfl

end Cert.Kernel.Hand

end
-- ==== Proof.K.RunFirst.lean ====
/-
  The body's whole run at the first grid point.

  There the conditional is taken: the accumulator's buffer, whatever it held, is read once and then
  overwritten with the zero block; the four input blocks are read; the accumulator is read back
  (now zero) and the point's sum term over it is stored. The buffer ends with two whole-block
  stores, the later covering the earlier; the inputs' buffers are left as found.
-/
import proofs.«166591_j1717986918748_1_alg».proof.Proof.K.Data
import Idealize.ShloMosaic.Lib.Tactic
import Idealize.ShloMosaic.Lib.Pipeline.FrameBody
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the first point leaves in the accumulator's buffer (last first), with the run that
    finds them: from the four input buffers at given contents and the accumulator's at any, the
    body reaches a continuation that is handed the inputs back unchanged and the accumulator's
    buffer with those stores written. -/
noncomputable def runFirst (c : Dev nD) (i : grid0.Coords)
    (arg2 : Memref sig .tc .vmem S1024 .f32) (harg2 : arg2.IsWhole)
    (arg3 : Memref sig .tc .vmem S1024 .f32) (harg3 : arg3.IsWhole)
    (arg4 : Memref sig .tc .vmem S1024 .f32) (harg4 : arg4.IsWhole)
    (arg5 : Memref sig .tc .vmem S1024 .f32) (harg5 : arg5.IsWhole)
    (arg6 : Memref sig .tc .vmem S1x1 .f32) (harg6 : arg6.IsWhole)
    (hc : isFirst i)
    (x0 : Vec F S1024 .f32) (x1 : Vec F S1024 .f32) (x2 : Vec F S1024 .f32) (x3 : Vec F S1024 .f32) :
    { L : List (View.Piece (Elt F) S1x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E
              (cc0__pair_kernel i arg2 harg2 arg3 harg3 arg4 harg4 arg5 harg5 arg6 harg6) K } := by
  refine ⟨?_, fun E K => ?run⟩
  case run =>
    simp only [cc0__pair_kernel_eq_skeleton]; unfold cc0__pair_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1
    obtain rfl := harg4.eq_unread hf2; obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Hand

end
-- ==== Proof.K.RunLater.lean ====
/-
  The body's whole run at a grid point after the first.

  There the conditional is not taken: the four input blocks are read, the accumulator's buffer is
  read at what the point before left in it, and the point's sum term over that is stored. The
  buffer ends with one whole-block store; the inputs' buffers are left as found.
-/
import proofs.«166591_j1717986918748_1_alg».proof.Proof.K.Data
import Idealize.ShloMosaic.Lib.Tactic
import Idealize.ShloMosaic.Lib.Pipeline.FrameBody
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The store a later point leaves in the accumulator's buffer, with the run that finds it: from
    the four input buffers and the accumulator's at given contents, the body reaches a continuation
    that is handed the inputs back unchanged and the accumulator's buffer with that store written. -/
noncomputable def runLater (c : Dev nD) (i : grid0.Coords)
    (arg2 : Memref sig .tc .vmem S1024 .f32) (harg2 : arg2.IsWhole)
    (arg3 : Memref sig .tc .vmem S1024 .f32) (harg3 : arg3.IsWhole)
    (arg4 : Memref sig .tc .vmem S1024 .f32) (harg4 : arg4.IsWhole)
    (arg5 : Memref sig .tc .vmem S1024 .f32) (harg5 : arg5.IsWhole)
    (arg6 : Memref sig .tc .vmem S1x1 .f32) (harg6 : arg6.IsWhole)
    (hc : ¬isFirst i)
    (x0 : Vec F S1024 .f32) (x1 : Vec F S1024 .f32) (x2 : Vec F S1024 .f32) (x3 : Vec F S1024 .f32)
    (xo : Vec F S1x1 .f32) :
    { L : List (View.Piece (Elt F) S1x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xo
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E
              (cc0__pair_kernel i arg2 harg2 arg3 harg3 arg4 harg4 arg5 harg5 arg6 harg6) K } := by
  refine ⟨?_, fun E K => ?run⟩
  case run =>
    simp only [cc0__pair_kernel_eq_skeleton]; unfold cc0__pair_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3
    obtain rfl := harg6.eq_unread hf4
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Hand

end
-- ==== Proof.K.Body.lean ====
/-
  The kernel body's obligation to its pipeline.

  At every grid point the body is handed the four input windows' buffers, each at its block, and
  the accumulator's buffer: at anything at the first point, at what the point before left
  otherwise (it is never written back in between). It hands the inputs back unchanged and the
  accumulator at the running sum  acc t.  The two whole-body runs say which stores the buffer ends
  with; read back, the last of them is the body's sum term over the four blocks and over what the
  accumulator held, which at the first point is the zero block just stored.
-/
import proofs.«166591_j1717986918748_1_alg».proof.Proof.K.RunFirst
import proofs.«166591_j1717986918748_1_alg».proof.Proof.K.RunLater
import Idealize.ShloMosaic.Lib.Ring
import Idealize.ShloMosaic.Lib.Pipeline.Value
import Mathlib.Tactic.FinCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the windows' buffers hold when the body is called -/

/-- Input window 0's buffer holds its block at every point, fetched there or not: where it is not
    fetched the block index has not moved. -/
theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-- Input window 1's buffer holds its block at every point. -/
theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-- Input window 2's buffer holds its block at every point, fetched there or not. -/
theorem before_2 (c : Dev nD) (t : Fin cfg0.N) (d) : (dats m 0 c).before 2 t d = iblk m c 2 t :=
  ((dats m 0 c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

/-- Input window 3's buffer holds its block at every point. -/
theorem before_3 (c : Dev nD) (t : Fin cfg0.N) (d) : (dats m 0 c).before 3 t d = iblk m c 3 t :=
  ((dats m 0 c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)

/-- At a point after the first the accumulator's buffer holds what the body left at the point
    before: the only write-back is after the last point, the window is never idle and never cut. -/
theorem before_4_later (c : Dev nD) (t : Fin cfg0.N) (h0 : t.val ≠ 0) (d) :
    (dats m 0 c).before 4 t d = acc m c (t.val - 1) (Nat.lt_of_le_of_lt (Nat.sub_le _ _) t.isLt) := by
  have hN : t.val < 256 := lt_of_lt_of_eq t.isLt (show cfg0.N = 256 from N_0)
  rw [Dat.before_out_kept _ 4 rfl t h0 (Bool.eq_false_iff.mpr fun h => by have := (flush0_4 _).mp h; dsimp only at this; omega)
    (fun _ => rfl) (fun _ _ => rfl)]
  rw [after_4]

/-! ## What the runs' stores leave in the accumulator's buffer -/

/-- A rank-one offset of zero, as the loads of the input blocks spell it. -/
theorem hz1 : (![0] : Fin 1 → Nat) = fun _ => 0 := funext fun a => by fin_cases a <;> rfl
/-- A rank-two offset of zeros, as the accumulator's loads and stores spell it. -/
theorem hz2 : (![0, 0] : Fin 2 → Nat) = fun _ => 0 := funext fun a => by fin_cases a <;> rfl

/-- The first point's stores cover the accumulator's one-element block. -/
theorem coverFirst (c : Dev nD) (i : grid0.Coords)
    (arg2 : Memref sig .tc .vmem S1024 .f32) (harg2 : arg2.IsWhole)
    (arg3 : Memref sig .tc .vmem S1024 .f32) (harg3 : arg3.IsWhole)
    (arg4 : Memref sig .tc .vmem S1024 .f32) (harg4 : arg4.IsWhole)
    (arg5 : Memref sig .tc .vmem S1024 .f32) (harg5 : arg5.IsWhole)
    (arg6 : Memref sig .tc .vmem S1x1 .f32) (harg6 : arg6.IsWhole)
    (hc : isFirst i) (x0 : Vec F S1024 .f32) (x1 : Vec F S1024 .f32) (x2 : Vec F S1024 .f32) (x3 : Vec F S1024 .f32) (y : S1x1.Idx) :
    ∃ pc ∈ (runFirst c i arg2 harg2 arg3 harg3 arg4 harg4 arg5 harg5 arg6 harg6 hc x0 x1 x2 x3).1, y ∈ pc.1.set :=
  View.cover_of_tiledL (runFirst c i arg2 harg2 arg3 harg3 arg4 harg4 arg5 harg5 arg6 harg6 hc x0 x1 x2 x3).1 S1x1.size (by sl_kernel_rfl) y

/-- A later point's store covers the accumulator's one-element block. -/
theorem coverLater (c : Dev nD) (i : grid0.Coords)
    (arg2 : Memref sig .tc .vmem S1024 .f32) (harg2 : arg2.IsWhole)
    (arg3 : Memref sig .tc .vmem S1024 .f32) (harg3 : arg3.IsWhole)
    (arg4 : Memref sig .tc .vmem S1024 .f32) (harg4 : arg4.IsWhole)
    (arg5 : Memref sig .tc .vmem S1024 .f32) (harg5 : arg5.IsWhole)
    (arg6 : Memref sig .tc .vmem S1x1 .f32) (harg6 : arg6.IsWhole)
    (hc : ¬isFirst i) (x0 : Vec F S1024 .f32) (x1 : Vec F S1024 .f32) (x2 : Vec F S1024 .f32) (x3 : Vec F S1024 .f32) (xo : Vec F S1x1 .f32) (y : S1x1.Idx) :
    ∃ pc ∈ (runLater c i arg2 harg2 arg3 harg3 arg4 harg4 arg5 harg5 arg6 harg6 hc x0 x1 x2 x3 xo).1, y ∈ pc.1.set :=
  View.cover_of_tiledL (runLater c i arg2 harg2 arg3 harg3 arg4 harg4 arg5 harg5 arg6 harg6 hc x0 x1 x2 x3 xo).1 S1x1.size (by sl_kernel_rfl) y

/-- Read back, the first point's stores are the body's sum term of the four blocks over the zero
    block: the later store covers the earlier, and its last operand is the earlier one read back. -/
theorem leftFirst (c : Dev nD) (i : grid0.Coords)
    (arg2 : Memref sig .tc .vmem S1024 .f32) (harg2 : arg2.IsWhole)
    (arg3 : Memref sig .tc .vmem S1024 .f32) (harg3 : arg3.IsWhole)
    (arg4 : Memref sig .tc .vmem S1024 .f32) (harg4 : arg4.IsWhole)
    (arg5 : Memref sig .tc .vmem S1024 .f32) (harg5 : arg5.IsWhole)
    (arg6 : Memref sig .tc .vmem S1x1 .f32) (harg6 : arg6.IsWhole)
    (hc : isFirst i) (x0 : Vec F S1024 .f32) (x1 : Vec F S1024 .f32) (x2 : Vec F S1024 .f32) (x3 : Vec F S1024 .f32) (f : arg6.view.ty.Contents (Elt F)) :
    arg6.view.read (Elt F) (arg6.view.writes (Elt F) f (runFirst c i arg2 harg2 arg3 harg3 arg4 harg4 arg5 harg5 arg6 harg6 hc x0 x1 x2 x3).1)
      = k0_pay2 x2 x3 x0 x1 (k0_pay1 (F := F)) := by
  rw [View.read_writes_eq_canon _ _ _ (coverFirst c i arg2 harg2 arg3 harg3 arg4 harg4 arg5 harg5 arg6 harg6 hc x0 x1 x2 x3)]
  unfold runFirst
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread,
    View.ld_unit_zero (S := S1024) hz1]

/-- Read back, a later point's store is the body's sum term of the four blocks over what the
    accumulator held. -/
theorem leftLater (c : Dev nD) (i : grid0.Coords)
    (arg2 : Memref sig .tc .vmem S1024 .f32) (harg2 : arg2.IsWhole)
    (arg3 : Memref sig .tc .vmem S1024 .f32) (harg3 : arg3.IsWhole)
    (arg4 : Memref sig .tc .vmem S1024 .f32) (harg4 : arg4.IsWhole)
    (arg5 : Memref sig .tc .vmem S1024 .f32) (harg5 : arg5.IsWhole)
    (arg6 : Memref sig .tc .vmem S1x1 .f32) (harg6 : arg6.IsWhole)
    (hc : ¬isFirst i) (x0 : Vec F S1024 .f32) (x1 : Vec F S1024 .f32) (x2 : Vec F S1024 .f32) (x3 : Vec F S1024 .f32) (xo : Vec F S1x1 .f32) (f : arg6.view.ty.Contents (Elt F)) :
    arg6.view.read (Elt F) (arg6.view.writes (Elt F) f (runLater c i arg2 harg2 arg3 harg3 arg4 harg4 arg5 harg5 arg6 harg6 hc x0 x1 x2 x3 xo).1)
      = k0_pay2 x2 x3 x0 x1 xo := by
  rw [View.read_writes_eq_canon _ _ _ (coverLater c i arg2 harg2 arg3 harg3 arg4 harg4 arg5 harg5 arg6 harg6 hc x0 x1 x2 x3 xo)]
  unfold runLater
  dsimp only
  sl_unfold_words
  rw [View.canon_unit_zero hz2]
  simp only [View.readAt_eq_ld, harg2.read_unread, harg3.read_unread, harg4.read_unread, harg5.read_unread,
    harg6.read_unread, View.ld_unit_zero (S := S1024) hz1, View.ld_unit_zero (S := S1x1) hz2]

/-! ## The running sum, point by point -/

/-- At the first point the running sum is the sum term of that point's blocks over the zero block. -/
theorem acc_first (c : Dev nD) (t : Fin cfg0.N) (h0 : t.val = 0) :
    acc m c t.val t.isLt = k0_pay2 (iblk m c 2 t) (iblk m c 3 t) (iblk m c 0 t) (iblk m c 1 t) (k0_pay1 (F := F)) := by
  obtain ⟨n, hn⟩ := t
  cases n with
  | zero => rfl
  | succ n => exact absurd h0 (Nat.succ_ne_zero n)

/-- At a later point it is the sum term of that point's blocks over the running sum of the point before. -/
theorem acc_later (c : Dev nD) (t : Fin cfg0.N) (h0 : t.val ≠ 0) :
    acc m c t.val t.isLt = k0_pay2 (iblk m c 2 t) (iblk m c 3 t) (iblk m c 0 t) (iblk m c 1 t) (acc m c (t.val - 1) (Nat.lt_of_le_of_lt (Nat.sub_le _ _) t.isLt)) := by
  obtain ⟨n, hn⟩ := t
  cases n with
  | zero => exact absurd rfl h0
  | succ n => rfl

/-! ## The body at a generic point -/

/-- Each window's current buffer at point t, as the pipeline passes it to the body, and its wholeness. -/
abbrev ms0 (t : Fin cfg0.N) : Memref sig .tc .vmem S1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)

/-- What the body is called with at point t: the invariant, what the core owes, and the five
    windows' current buffers one by one. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 800000 in
/-- The body at any point. The inputs' buffers hold their blocks; the point is the first or not.
    At the first the accumulator's buffer is handed over at whatever it holds and the first run
    applies; at a later one it holds the running sum of the point before and the later run
    applies. Either way the stores read back as the running sum at this point; the invariant and
    what the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  by_cases h0 : t.val = 0
  · rw [acc_first m c t h0]
    iintro ⟨HΦ, Ho, ⟨%d0, H0⟩, ⟨%d1, H1⟩, ⟨%d2, H2⟩, ⟨%d3, H3⟩, ⟨%d4, H4⟩⟩
    iapply ((runFirst c (grid0.coords t) (ms0 t) (hs0 t) (ms1 t) (hs1 t) (ms2 t) (hs2 t) (ms3 t) (hs3 t) (ms4 t) (hs4 t) ((isFirst_iff t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact leftFirst c (grid0.coords t) (ms0 t) (hs0 t) (ms1 t) (hs1 t) (ms2 t) (hs2 t) (ms3 t) (hs3 t) (ms4 t) (hs4 t) ((isFirst_iff t).mpr h0) (iblk m c 0 t) (iblk m c 1 t) (iblk m c 2 t) (iblk m c 3 t) e4
  · rw [acc_later m c t h0]
    simp only [before_4_later m c t h0]
    iintro ⟨HΦ, Ho, ⟨%d0, H0⟩, ⟨%d1, H1⟩, ⟨%d2, H2⟩, ⟨%d3, H3⟩, ⟨%d4, H4⟩⟩
    iapply ((runLater c (grid0.coords t) (ms0 t) (hs0 t) (ms1 t) (hs1 t) (ms2 t) (hs2 t) (ms3 t) (hs3 t) (ms4 t) (hs4 t) (fun h => h0 ((isFirst_iff t).mp h)) (iblk m c 0 t) (iblk m c 1 t) (iblk m c 2 t) (iblk m c 3 t) (acc m c (t.val - 1) (Nat.lt_of_le_of_lt (Nat.sub_le _ _) t.isLt))).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact leftLater c (grid0.coords t) (ms0 t) (hs0 t) (ms1 t) (hs1 t) (ms2 t) (hs2 t) (ms3 t) (hs3 t) (ms4 t) (hs4 t) (fun h => h0 ((isFirst_iff t).mp h)) (iblk m c 0 t) (iblk m c 1 t) (iblk m c 2 t) (iblk m c 3 t) (acc m c (t.val - 1) (Nat.lt_of_le_of_lt (Nat.sub_le _ _) t.isLt)) e4

/-- The pipeline's body obligation: the body at every point, the windows taken one by one. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Tail.lean ====
/-
  The host operations after the region, as one pure function: from the two counts np = Σ p and nn = Σ n and
  the 1 × 1 array ps the region wrote,

      d = np · nn,   valid = (d > 0),   result = if valid then 1 − ps / (if valid then d else 1) else 0.
-/
import proofs.«166591_j1717986918748_1_alg».proof.Proof.Gen.Kernel

noncomputable section

namespace Cert.Kernel.Hand

open Cert.Kernel Idealize.ShloMosaic
open Cert.Kernel.Facts₀

variable {F : FTy → Type} [FloatOps F]

/-- The closing arithmetic of @main, in the order its operations run. -/
def tailOf (np nn : (⟨S_, .f32⟩ : BufTy).Contents (Elt F)) (ps : (⟨S1x1, .f32⟩ : BufTy).Contents (Elt F)) :
    (⟨S_, .f32⟩ : BufTy).Contents (Elt F) :=
  select (cmpf (F := F) .ogt (mulf np nn) (constant (F := F) S_ .f32 0x00000000#32))
    (subf (constant (F := F) S_ .f32 0x3F800000#32)
      (Host.divf (shapeCast S_ ps shapeCasts_S1x1_S_)
        (select (cmpf (F := F) .ogt (mulf np nn) (constant (F := F) S_ .f32 0x00000000#32)) (mulf np nn)
          (id (constant (F := F) S_ .f32 0x3F800000#32)))))
    (id (constant (F := F) S_ .f32 0x00000000#32))

end Cert.Kernel.Hand

end
-- ==== Proof.K.Launch.lean ====
/-
  The launch of the pairwise soft-AUC program: @main as a list of segments.

  @main is thirteen host operations, ONE kernel region, and four more host stretches (thirteen operations).
  The region's five windows sit on FOUR arrays: windows 2 and 3 both read the scores array, each holding a
  half share of it. At the region's entry the scores array's full share is cut in two; at its exit the
  halves are joined again, and the 1 × 1 output array, now at the accumulator's last value, takes its place
  in the valuation the remaining host operations run from.
-/
import proofs.«166591_j1717986918748_1_alg».proof.Proof.K.Data
import proofs.«166591_j1717986918748_1_alg».proof.Proof.K.Tail
import Idealize.ShloMosaic.Lib.Pipeline.Regions

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

namespace Launch

/-- The pipeline library's algebra is the whole user component. -/
abbrev EP : Emb (UR sig nD τ) (MT nD τ sig Unit (Elt F) ℕ (UR sig nD τ) ℕ) := emb₁

abbrev 𝒱₀ : Variants := Variants.none
/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm

/-- What rides beside the buffers through every segment: the core owing nothing. -/
abbrev R (c : Dev nD) : sProp 𝕄 := iprop(∃ W, owes (c : Thread nD τ) (0 : CellTallies nD τ sig Unit) W)

/-- The TensorCore's unscoped buffers: the set every host stretch runs within. -/
abbrev uc : Finset (DevRef τ sig) := Pipeline.ucRefs τ sig

/-! ## The valuations between the segments -/

/-- Core c's buffers when the region is left: as it was entered, but for the output array, at the accumulator's last value. -/
def W₁ (c : Dev nD) : Valuation τ sig (Elt F) :=
  Function.update (StableHlo.after hostOps0 (V₀ m c)) (Proc.devRef .tc main_v10) ((dats m 0 c).arrAt 4 cfg0.N)

/-- and after each of the four host stretches that follow. -/
def W₂ (c : Dev nD) : Valuation τ sig (Elt F) := StableHlo.after hostOps1 (W₁ m c)
def W₃ (c : Dev nD) : Valuation τ sig (Elt F) := StableHlo.after hostOps1_1 (W₂ m c)
def W₄ (c : Dev nD) : Valuation τ sig (Elt F) := StableHlo.after hostOps1_2 (W₃ m c)
def W₅ (c : Dev nD) : Valuation τ sig (Elt F) := StableHlo.after hostOps1_3 (W₄ m c)

/-! ## The host segments -/

/-- A line of host operations over the unscoped buffers, from the valuation it is given. -/
def hostSeg (ops : List (HloOp τ sig (Elt F))) (hsub : ops.Forall fun op => op.bufs ⊆ StableHlo.tcRefs τ sig)
    (hf : ∀ op ∈ ops, op.fresh = ∅) (V : Dev nD → Valuation τ sig (Elt F)) :
    Pipeline.HostSeg (Name := ℕ) (U := UR sig nD τ) (pcfgs (F := F)) defs₀ 𝒱₀ L lv :=
  Pipeline.HostSeg.ofOps _ _ _ _ _ uc ops (fun op h => Pipeline.sub_ucRefs op ((List.forall_iff_forall_mem.mp hsub) op h)) hf V R

def seg0 : Pipeline.HostSeg (Name := ℕ) (U := UR sig nD τ) (pcfgs (F := F)) defs₀ 𝒱₀ L lv :=
  hostSeg hostOps0 hostOps0_sub (by intro _ h; (repeat (cases h with | head => rfl | tail _ h => ?_)); exact nomatch h) (V₀ m)
def seg1 : Pipeline.HostSeg (Name := ℕ) (U := UR sig nD τ) (pcfgs (F := F)) defs₀ 𝒱₀ L lv :=
  hostSeg hostOps1 hostOps1_sub (by intro _ h; (repeat (cases h with | head => rfl | tail _ h => ?_)); exact nomatch h) (W₁ m)
def seg2 : Pipeline.HostSeg (Name := ℕ) (U := UR sig nD τ) (pcfgs (F := F)) defs₀ 𝒱₀ L lv :=
  hostSeg hostOps1_1 hostOps1_1_sub (by intro _ h; (repeat (cases h with | head => rfl | tail _ h => ?_)); exact nomatch h) (W₂ m)
def seg3 : Pipeline.HostSeg (Name := ℕ) (U := UR sig nD τ) (pcfgs (F := F)) defs₀ 𝒱₀ L lv :=
  hostSeg hostOps1_2 hostOps1_2_sub (by intro _ h; (repeat (cases h with | head => rfl | tail _ h => ?_)); exact nomatch h) (W₃ m)
def seg4 : Pipeline.HostSeg (Name := ℕ) (U := UR sig nD τ) (pcfgs (F := F)) defs₀ 𝒱₀ L lv :=
  hostSeg hostOps1_3 hostOps1_3_sub (by intro _ h; (repeat (cases h with | head => rfl | tail _ h => ?_)); exact nomatch h) (W₄ m)

/-! ## What the valuations hold -/

theorem W₁_of_ne (c : Dev nD) (b : Ref sig .tc) (hb : b ≠ main_v10) : W₁ m c (Proc.devRef .tc b) = V m c b := by
  unfold W₁
  rw [Function.update_of_ne (StableHlo.devRef_ne_of_ne hb)]
  rfl

theorem W₁_v10 (c : Dev nD) : W₁ m c (Proc.devRef .tc main_v10) = (dats m 0 c).arrAt 4 cfg0.N := by
  unfold W₁; rw [Function.update_self]

theorem mem_uc (b : Ref sig .tc) (hb : b.isScoped = false) : Proc.devRef (τ := τ) .tc b ∈ (uc : Finset (DevRef τ sig)) :=
  Finset.mem_filter.mpr ⟨StableHlo.devRef_mem_tcRefs b, fun h => Bool.false_ne_true (hb.symm.trans h)⟩

/-- The result buffer after the last stretch: the closing arithmetic of the two counts and the accumulator's last value. -/
theorem W₅_v17 (c : Dev nD) :
    W₅ m c (Proc.devRef .tc main_v17) = tailOf (V m c main_v8) (V m c main_v9) ((dats m 0 c).arrAt 4 cfg0.N) := by
  unfold W₅ W₄ W₃ W₂
  after_results
  rw [W₁_of_ne m c main_v8 (by decide), W₁_of_ne m c main_v9 (by decide), W₁_v10]
  rfl

/-- No operation writes an argument. -/
theorem W₅_arg0 (c : Dev nD) : W₅ m c (Proc.devRef .tc main_arg0) = m ((c : Thread nD τ).loc main_arg0) := by
  unfold W₅ W₄ W₃ W₂
  after_results
  rw [W₁_of_ne m c main_arg0 (by decide), V_eq]
  after_results

theorem W₅_arg1 (c : Dev nD) : W₅ m c (Proc.devRef .tc main_arg1) = m ((c : Thread nD τ).loc main_arg1) := by
  unfold W₅ W₄ W₃ W₂
  after_results
  rw [W₁_of_ne m c main_arg1 (by decide), V_eq]
  after_results

/-! ## The four arrays behind the five windows -/

/-- The buffers behind the windows, listed: four, the scores array counted once. -/
theorem arrBufs_chain (c : Dev nD) (G : (b : Ref sig .tc) → Buf (Elt F) ((c : Thread nD τ).loc b)) :
    (Pipeline.arrBufs (Ix := Unit) (Name := ℕ) (U := UR sig nD τ) (Lvl := ℕ) spec0 c G : sProp 𝕄)
      = iprop((((c : Thread nD τ).loc main_v7) ↦{fullShare} G main_v7) ∗ (((c : Thread nD τ).loc main_v5) ↦{fullShare} G main_v5)
          ∗ (((c : Thread nD τ).loc main_v4) ↦{fullShare} G main_v4) ∗ (((c : Thread nD τ).loc main_v10) ↦{fullShare} G main_v10)) := by
  unfold Pipeline.arrBufs
  exact bigSep_eq_bigSepL_of_eq [main_v7, main_v5, main_v4, main_v10] (by decide) (by decide) _

/-- The windows' arrays, window by window: the two masks whole, the scores array a half for each of its two windows,
    the output whole. -/
theorem arrays_chain (c : Dev nD) (G : (w : Fin cfg0.W) → Buf (Elt F) ((cfg0.win w).arr.view.loc (c : Thread nD τ))) :
    ((dats m 0 c).arrays G : sProp 𝕄)
      = iprop((((c : Thread nD τ).loc main_v7) ↦{fullShare} G 0) ∗ (((c : Thread nD τ).loc main_v5) ↦{fullShare} G 1)
          ∗ (((c : Thread nD τ).loc main_v4) ↦{fullShare.left} G 2) ∗ (((c : Thread nD τ).loc main_v4) ↦{fullShare.right} G 3)
          ∗ (((c : Thread nD τ).loc main_v10) ↦{fullShare} G 4)) := by
  unfold Dat.arrays
  rw [bigSep_W0]
  have hs0 : (dats m 0 c).share 0 = fullShare := by unfold Dat.share; rfl
  have hs1 : (dats m 0 c).share 1 = fullShare := by unfold Dat.share; rfl
  have hs2 : (dats m 0 c).share 2 = fullShare.left := by unfold Dat.share; rfl
  have hs3 : (dats m 0 c).share 3 = fullShare.right := by unfold Dat.share; rfl
  have hs4 : (dats m 0 c).share 4 = fullShare := by unfold Dat.share; rfl
  rw [hs0, hs1, hs2, hs3, hs4]
  exact congrArg₂ BI.sep (by rw [(arr_whole0 0).set_eq_univ]) (congrArg₂ BI.sep (by rw [(arr_whole0 1).set_eq_univ])
    (congrArg₂ BI.sep (by rw [(arr_whole0 2).set_eq_univ]) (congrArg₂ BI.sep (by rw [(arr_whole0 3).set_eq_univ])
      (by rw [(arr_whole0 4).set_eq_univ]))))

/-! ## The region's entry and exit, the arrays' part -/

/-- ENTRY: the unscoped buffers as the first stretch left them are the windows' arrays at their entry contents — the
    scores array's full share cut into the halves its two windows hold — and the unscoped rest. -/
theorem entry_arrays (c : Dev nD) :
    (unscopedBufs (Ix := Unit) (Name := ℕ) (U := UR sig nD τ) (Lvl := ℕ) c (V m c) : sProp 𝕄)
      ⊢ iprop((dats m 0 c).arrays ((dats m 0 c).arrAt · 0)
          ∗ Pipeline.unscopedRest (Ix := Unit) (Name := ℕ) (U := UR sig nD τ) (Lvl := ℕ) spec0 c (V m c)) := by
  rw [Pipeline.unscopedBufs_split₀ cfgs 0 winFacts₀0.arr_unscoped c (V m c), arrBufs_chain, arrays_chain]
  iintro ⟨⟨H7, H5, H4, H10⟩, Hrest⟩
  ihave H4' := (pointsTo_share (PosShare.mem_left_op_right fullShare)).1 $$ H4
  icases H4' with ⟨H4l, H4r⟩
  isplitr [Hrest]
  · isplitl [H7]; · iexact H7
    isplitl [H5]; · iexact H5
    isplitl [H4l]; · iexact H4l
    isplitl [H4r]; · iexact H4r
    iexact H10
  iexact Hrest

/-- The unscoped buffers that are no window's array hold at the exit valuation what they held at entry: it differs
    at the output array alone. -/
theorem unscopedRest_W₁ (c : Dev nD) :
    (Pipeline.unscopedRest (Ix := Unit) (Name := ℕ) (U := UR sig nD τ) (Lvl := ℕ) spec0 c (fun b => W₁ m c b) : sProp 𝕄)
      = Pipeline.unscopedRest (Ix := Unit) (Name := ℕ) (U := UR sig nD τ) (Lvl := ℕ) spec0 c (V m c) := by
  unfold Pipeline.unscopedRest
  exact bigSep_congr fun b hb => by
    have hne : b ≠ main_v10 := fun h => (Finset.mem_sdiff.mp hb).2 (by
      rw [h]; exact Finset.mem_image.mpr ⟨4, Finset.mem_univ _, rfl⟩)
    beta_reduce
    rw [W₁_of_ne m c b hne]

/-- EXIT: the arrays at their last contents — the inputs as they were, the halves of the scores array joined again, the
    output at the accumulator's last value — and the unscoped rest are the unscoped buffers at the valuation the next
    stretch runs from. -/
theorem exit_arrays (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ (StableHlo.held (c : Thread nD τ) uc (W₁ m c) : sProp 𝕄) := by
  rw [← Pipeline.unscopedBufs_held c (W₁ m c), Pipeline.unscopedBufs_split₀ cfgs 0 winFacts₀0.arr_unscoped c (fun b => W₁ m c b),
    arrBufs_chain, arrays_chain, unscopedRest_W₁]
  beta_reduce
  rw [W₁_of_ne m c main_v7 (by decide), W₁_of_ne m c main_v5 (by decide), W₁_of_ne m c main_v4 (by decide), W₁_v10,
    (dats m 0 c).arrAt_in 0 rfl, (dats m 0 c).arrAt_in 1 rfl, (dats m 0 c).arrAt_in 2 rfl, (dats m 0 c).arrAt_in 3 rfl,
    A_eq, A_eq, A_eq, A_eq]
  iintro ⟨⟨H7, H5, H4l, H4r, H10⟩, Hrest⟩
  ihave H4 := (pointsTo_share (PosShare.mem_left_op_right fullShare)).2 $$ [H4l H4r]
  · isplitl [H4l] <;> iassumption
  isplitr [Hrest]
  · isplitl [H7]; · iexact H7
    isplitl [H5]; · iexact H5
    isplitl [H4]; · iexact H4
    iexact H10
  iexact Hrest

/-! ## The region -/

variable (hbody : ∀ c, BodyObligation (dats (F := F) m 0 c) (defs₀ (F := F)) Variants.none () Set.univ)

set_option backward.isDefEq.respectTransparency.types false in
/-- THE REGION: entered from what the first host stretch left — the four arrays into the pipeline, the scores array's
    share cut in two for the two windows on it, every other unscoped buffer bypassing —, left with the output array at
    the accumulator's last value and everything else as it was. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (hbody c).loose
  hwaits := Pipeline.hwaits_of_owed_zero _ _ _ _ L lv 0 fun _ _ => rfl
  pre c := iprop(StableHlo.held (c : Thread nD τ) uc (StableHlo.after hostOps0 (V₀ m c)) ∗ R c)
  post c := iprop(StableHlo.held (c : Thread nD τ) uc (W₁ m c) ∗ R c)
  X c := iprop(emp)
  Y c := iprop(emp)
  Z c := Pipeline.unscopedRest (Ix := Unit) (Name := ℕ) (U := UR sig nD τ) (Lvl := ℕ) spec0 c (V m c)
  hentry c := by
    rw [show StableHlo.held (c : Thread nD τ) uc (StableHlo.after hostOps0 (V₀ m c)) = unscopedBufs c (V m c) from (Pipeline.unscopedBufs_held c _).symm]
    iintro ⟨⟨Hub, HO⟩, -, -⟩
    ihave H := (entry_arrays m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [Φ_eq]
    iintro ⟨-, -, Hr⟩
    iexact Hr
  hout c := by
    rw [Φ_eq, Pipeline.ownSems0_none]
    iintro Hr
    isplitr; · iempintro
    isplitr; · iempintro
    iexact Hr
  hexit c := by
    iintro ⟨Ha, HO, -, HZ⟩
    imodintro
    isplitr [HO]
    · iapply (exit_arrays m c)
      isplitl [Ha] <;> iassumption
    · unfold Pipeline.Dat.owesAt Pipeline.owesWithin
      icases HO with ⟨%W, -, HO⟩; iexists W; iexact HO

/-- @main as the list of the six. -/
abbrev segs : List (Pipeline.Seg (pcfgs (F := F)) adm (dats m) () defs₀ 𝒱₀ L lv) :=
  [.host (seg0 m), .region (reg0 m hbody), .host (seg1 m), .host (seg2 m), .host (seg3 m), .host (seg4 m)]

end Launch

open Launch

set_option backward.isDefEq.respectTransparency.types false in
/-- At the compiled mesh, for any float values, from any memory with zero counters: every weakly fair execution of
    @main on the TensorCores terminates, and every final state has the result buffer at the closing arithmetic of the
    two counts and the accumulator's last value, and both arguments as they were. -/
theorem run_main (hbody : ∀ c, BodyObligation (dats (F := F) m 0 c) (defs₀ (F := F)) Variants.none () Set.univ) (ρ : Dev nD → PrngReg) :
    θ_run defs (onTc (τ := τ) (main (F := F))) ⟨m, fun _ => 0, ρ⟩ (fun r => ∀ c : Dev nD,
      r.2.mem ((c.tc : Thread nD τ).loc main_v17) = tailOf (V m c main_v8) (V m c main_v9) ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (dats m) () cellOf_inj EP defs₀ 𝒱₀ L lv m ρ main (segs m hbody)
    (fun c Q => by
      have h : main (F := F) c = Pipeline.Seg.run (segs m hbody) := by
        rw [main_chain c, Pipeline.Seg.run_eq_chain]; rfl
      rw [h])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (EP (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) uc (V₀ m c) ∗ R c)) (Tₙ := fun c => StableHlo.held (c : Thread nD τ) uc (W₅ m c))
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) uc (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v17) = W₅ m c (Proc.devRef .tc main_v17)
      ∧ s.mem ((c : Thread nD τ).loc main_arg0) = W₅ m c (Proc.devRef .tc main_arg0)
      ∧ s.mem ((c : Thread nD τ).loc main_arg1) = W₅ m c (Proc.devRef .tc main_arg1))
    (hfin := fun c s' => by
      unfold StableHlo.held
      iintro ⟨Hh, HSI⟩
      ihave Hr := (pointsTo_read_all uc (fun b => ((c : Thread nD τ).1, b)) (W₅ m c) s') $$ [Hh HSI]
      · isplitl [Hh] <;> iassumption
      icases Hr with ⟨%h, HSI⟩
      imodintro
      isplitr
      · ipureintro
        exact ⟨h _ (mem_uc main_v17 rfl), h _ (mem_uc main_arg0 rfl), h _ (mem_uc main_arg1 rfl)⟩
      iexact HSI)
    (hQ := fun s h c => ⟨(h c).1.trans (W₅_v17 m c), (h c).2.1.trans (W₅_arg0 m c), (h c).2.2.trans (W₅_arg1 m c)⟩)

end Cert.Kernel.Hand

end
-- ==== Proof.KI.Data.lean ====
/-
  The pairwise soft-AUC kernel: what its one pipeline stages and what its body leaves, point by point.

  The grid is 16 × 16, point t = 16·i + j. Windows 0 and 2 (the "negative" mask and the scores of the
  ROWS, block i) and windows 1 and 3 (the "positive" mask and the scores of the COLUMNS, block j) are
  inputs; windows 2 and 3 read ONE array (the scores), at different blocks. Window 4 is the 1 × 1
  output, the same block at every point, written back after the last point only: it is the
  accumulator. At point 0 the body stores zero into it; at every point it then adds the point's
  partial sum  Σ_r Σ_c logistic(s_col c − s_row r) · (neg r · pos c)  to what the buffer holds.
  So after point n the buffer holds  acc n = pay2 (blocks at n) (acc (n−1)),  acc 0 = pay2 (blocks at 0) zero,
  with pay2 the body's one arithmetic term (the skeleton's second payload) and zero its first.
-/
import proofs.«166591_j1717986918748_1_alg».proof.Proof.Gen.KernelIdeal.Launch
import proofs.«166591_j1717986918748_1_alg».proof.Proof.Gen.KernelIdeal.Skeleton
import proofs.«166591_j1717986918748_1_alg».proof.Proof.Gen.KernelIdeal.Points
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The arrays as the region finds them -/

/-- Core c's buffers at launch, as a valuation of its references. -/
abbrev V₀ (c : Dev nD) : Valuation τ sig (Elt F) := fun b => m ((c : Dev nD), b)

/-- Core c's buffers when the region is entered: the thirteen host operations before it have run
    (the two score columns sliced and subtracted, the label mask converted, its complement, the two counts). -/
def V (c : Dev nD) (b : Ref sig .tc) : Buf (Elt F) ((c : Thread nD τ).loc b) := StableHlo.after hostOps0 (V₀ m c) b

theorem V_eq (c : Dev nD) (b : Ref sig .tc) : V m c b = StableHlo.after hostOps0 (V₀ m c) b := rfl

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's one branch: "is this the first point?" -/

/-- The condition of the body's conditional, from the grid coordinates: both are zero. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at point 0 only: decided over the 256 points. -/
theorem isFirst_iff : ∀ t : Fin cfg0.N, isFirst (grid0.coords t) ↔ t.val = 0 :=
  (by decide +kernel : ∀ t : Fin grid0.N, isFirst (grid0.coords t) ↔ t.val = 0)

/-! ## The accumulator -/

/-- What the output's staging buffer holds after the body at point n: the body's sum term of the
    point's four input blocks, over zero at the first point and over what the point before left otherwise. -/
def acc (c : Dev nD) : (n : ℕ) → n < cfg0.N → Vec F S1x1 .f32
  | 0, h => k0_pay2 (iblk m c 2 ⟨0, h⟩) (iblk m c 3 ⟨0, h⟩) (iblk m c 0 ⟨0, h⟩) (iblk m c 1 ⟨0, h⟩) (k0_pay1 (F := F))
  | n + 1, h => k0_pay2 (iblk m c 2 ⟨n + 1, h⟩) (iblk m c 3 ⟨n + 1, h⟩) (iblk m c 0 ⟨n + 1, h⟩) (iblk m c 1 ⟨n + 1, h⟩)
      (acc c n (Nat.lt_of_succ_lt h))

theorem acc_zero (c : Dev nD) (h : 0 < cfg0.N) :
    acc m c 0 h = k0_pay2 (iblk m c 2 ⟨0, h⟩) (iblk m c 3 ⟨0, h⟩) (iblk m c 0 ⟨0, h⟩) (iblk m c 1 ⟨0, h⟩) (k0_pay1 (F := F)) := rfl

theorem acc_succ (c : Dev nD) (n : ℕ) (h : n + 1 < cfg0.N) :
    acc m c (n + 1) h = k0_pay2 (iblk m c 2 ⟨n + 1, h⟩) (iblk m c 3 ⟨n + 1, h⟩) (iblk m c 0 ⟨n + 1, h⟩) (iblk m c 1 ⟨n + 1, h⟩)
      (acc m c n (Nat.lt_of_succ_lt h)) := rfl

/-! ## The pipeline's proof data -/

/-- The proof data on core c: the arrays as the region finds them; after the body each input's buffer at its
    block and the output's at the accumulator; the invariant the scoped buffers no window stages; nothing owed;
    the two windows on the scores array a half share each, every other input the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => acc m c t.val t.isLt
  Φ _ := Pipeline.scopedRest (Ix := Unit) (Name := ℕ) (U := UR sig nD τ) (Lvl := ℕ) (Val := Elt F) spec0 c
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = acc m c t.val t.isLt := by dsimp only [dats]

theorem Φ_eq (c : Dev nD) (t : Fin (cfg0.N + 1)) :
    (dats m 0 c).Φ t = Pipeline.scopedRest (Ix := Unit) (Name := ℕ) (U := UR sig nD τ) (Lvl := ℕ) (Val := Elt F) spec0 c := rfl

theorem owed_eq (c : Dev nD) (t : Fin (cfg0.N + 1)) : (dats m 0 c).owed t = 0 := rfl

end Cert.KernelIdeal.Hand

end
-- ==== Proof.KI.RunFirst.lean ====
/-
  The body's whole run at the first grid point.

  There the conditional is taken: the accumulator's buffer, whatever it held, is read once and then
  overwritten with the zero block; the four input blocks are read; the accumulator is read back
  (now zero) and the point's sum term over it is stored. The buffer ends with two whole-block
  stores, the later covering the earlier; the inputs' buffers are left as found.
-/
import proofs.«166591_j1717986918748_1_alg».proof.Proof.KI.Data
import Idealize.ShloMosaic.Lib.Tactic
import Idealize.ShloMosaic.Lib.Pipeline.FrameBody
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the first point leaves in the accumulator's buffer (last first), with the run that
    finds them: from the four input buffers at given contents and the accumulator's at any, the
    body reaches a continuation that is handed the inputs back unchanged and the accumulator's
    buffer with those stores written. -/
noncomputable def runFirst (c : Dev nD) (i : grid0.Coords)
    (arg2 : Memref sig .tc .vmem S1024 .f32) (harg2 : arg2.IsWhole)
    (arg3 : Memref sig .tc .vmem S1024 .f32) (harg3 : arg3.IsWhole)
    (arg4 : Memref sig .tc .vmem S1024 .f32) (harg4 : arg4.IsWhole)
    (arg5 : Memref sig .tc .vmem S1024 .f32) (harg5 : arg5.IsWhole)
    (arg6 : Memref sig .tc .vmem S1x1 .f32) (harg6 : arg6.IsWhole)
    (hc : isFirst i)
    (x0 : Vec F S1024 .f32) (x1 : Vec F S1024 .f32) (x2 : Vec F S1024 .f32) (x3 : Vec F S1024 .f32) :
    { L : List (View.Piece (Elt F) S1x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E
              (cc0__pair_kernel i arg2 harg2 arg3 harg3 arg4 harg4 arg5 harg5 arg6 harg6) K } := by
  refine ⟨?_, fun E K => ?run⟩
  case run =>
    simp only [cc0__pair_kernel_eq_skeleton]; unfold cc0__pair_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1
    obtain rfl := harg4.eq_unread hf2; obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.KI.RunLater.lean ====
/-
  The body's whole run at a grid point after the first.

  There the conditional is not taken: the four input blocks are read, the accumulator's buffer is
  read at what the point before left in it, and the point's sum term over that is stored. The
  buffer ends with one whole-block store; the inputs' buffers are left as found.
-/
import proofs.«166591_j1717986918748_1_alg».proof.Proof.KI.Data
import Idealize.ShloMosaic.Lib.Tactic
import Idealize.ShloMosaic.Lib.Pipeline.FrameBody
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The store a later point leaves in the accumulator's buffer, with the run that finds it: from
    the four input buffers and the accumulator's at given contents, the body reaches a continuation
    that is handed the inputs back unchanged and the accumulator's buffer with that store written. -/
noncomputable def runLater (c : Dev nD) (i : grid0.Coords)
    (arg2 : Memref sig .tc .vmem S1024 .f32) (harg2 : arg2.IsWhole)
    (arg3 : Memref sig .tc .vmem S1024 .f32) (harg3 : arg3.IsWhole)
    (arg4 : Memref sig .tc .vmem S1024 .f32) (harg4 : arg4.IsWhole)
    (arg5 : Memref sig .tc .vmem S1024 .f32) (harg5 : arg5.IsWhole)
    (arg6 : Memref sig .tc .vmem S1x1 .f32) (harg6 : arg6.IsWhole)
    (hc : ¬isFirst i)
    (x0 : Vec F S1024 .f32) (x1 : Vec F S1024 .f32) (x2 : Vec F S1024 .f32) (x3 : Vec F S1024 .f32)
    (xo : Vec F S1x1 .f32) :
    { L : List (View.Piece (Elt F) S1x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xo
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E
              (cc0__pair_kernel i arg2 harg2 arg3 harg3 arg4 harg4 arg5 harg5 arg6 harg6) K } := by
  refine ⟨?_, fun E K => ?run⟩
  case run =>
    simp only [cc0__pair_kernel_eq_skeleton]; unfold cc0__pair_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3
    obtain rfl := harg6.eq_unread hf4
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.KI.Body.lean ====
/-
  The kernel body's obligation to its pipeline.

  At every grid point the body is handed the four input windows' buffers, each at its block, and
  the accumulator's buffer: at anything at the first point, at what the point before left
  otherwise (it is never written back in between). It hands the inputs back unchanged and the
  accumulator at the running sum  acc t.  The two whole-body runs say which stores the buffer ends
  with; read back, the last of them is the body's sum term over the four blocks and over what the
  accumulator held, which at the first point is the zero block just stored.
-/
import proofs.«166591_j1717986918748_1_alg».proof.Proof.KI.RunFirst
import proofs.«166591_j1717986918748_1_alg».proof.Proof.KI.RunLater
import Idealize.ShloMosaic.Lib.Ring
import Idealize.ShloMosaic.Lib.Pipeline.Value
import Mathlib.Tactic.FinCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the windows' buffers hold when the body is called -/

/-- Input window 0's buffer holds its block at every point, fetched there or not: where it is not
    fetched the block index has not moved. -/
theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-- Input window 1's buffer holds its block at every point. -/
theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-- Input window 2's buffer holds its block at every point, fetched there or not. -/
theorem before_2 (c : Dev nD) (t : Fin cfg0.N) (d) : (dats m 0 c).before 2 t d = iblk m c 2 t :=
  ((dats m 0 c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

/-- Input window 3's buffer holds its block at every point. -/
theorem before_3 (c : Dev nD) (t : Fin cfg0.N) (d) : (dats m 0 c).before 3 t d = iblk m c 3 t :=
  ((dats m 0 c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)

/-- At a point after the first the accumulator's buffer holds what the body left at the point
    before: the only write-back is after the last point, the window is never idle and never cut. -/
theorem before_4_later (c : Dev nD) (t : Fin cfg0.N) (h0 : t.val ≠ 0) (d) :
    (dats m 0 c).before 4 t d = acc m c (t.val - 1) (Nat.lt_of_le_of_lt (Nat.sub_le _ _) t.isLt) := by
  have hN : t.val < 256 := lt_of_lt_of_eq t.isLt (show cfg0.N = 256 from N_0)
  rw [Dat.before_out_kept _ 4 rfl t h0 (Bool.eq_false_iff.mpr fun h => by have := (flush0_4 _).mp h; dsimp only at this; omega)
    (fun _ => rfl) (fun _ _ => rfl)]
  rw [after_4]

/-! ## What the runs' stores leave in the accumulator's buffer -/

/-- A rank-one offset of zero, as the loads of the input blocks spell it. -/
theorem hz1 : (![0] : Fin 1 → Nat) = fun _ => 0 := funext fun a => by fin_cases a <;> rfl
/-- A rank-two offset of zeros, as the accumulator's loads and stores spell it. -/
theorem hz2 : (![0, 0] : Fin 2 → Nat) = fun _ => 0 := funext fun a => by fin_cases a <;> rfl

/-- The first point's stores cover the accumulator's one-element block. -/
theorem coverFirst (c : Dev nD) (i : grid0.Coords)
    (arg2 : Memref sig .tc .vmem S1024 .f32) (harg2 : arg2.IsWhole)
    (arg3 : Memref sig .tc .vmem S1024 .f32) (harg3 : arg3.IsWhole)
    (arg4 : Memref sig .tc .vmem S1024 .f32) (harg4 : arg4.IsWhole)
    (arg5 : Memref sig .tc .vmem S1024 .f32) (harg5 : arg5.IsWhole)
    (arg6 : Memref sig .tc .vmem S1x1 .f32) (harg6 : arg6.IsWhole)
    (hc : isFirst i) (x0 : Vec F S1024 .f32) (x1 : Vec F S1024 .f32) (x2 : Vec F S1024 .f32) (x3 : Vec F S1024 .f32) (y : S1x1.Idx) :
    ∃ pc ∈ (runFirst c i arg2 harg2 arg3 harg3 arg4 harg4 arg5 harg5 arg6 harg6 hc x0 x1 x2 x3).1, y ∈ pc.1.set :=
  View.cover_of_tiledL (runFirst c i arg2 harg2 arg3 harg3 arg4 harg4 arg5 harg5 arg6 harg6 hc x0 x1 x2 x3).1 S1x1.size (by sl_kernel_rfl) y

/-- A later point's store covers the accumulator's one-element block. -/
theorem coverLater (c : Dev nD) (i : grid0.Coords)
    (arg2 : Memref sig .tc .vmem S1024 .f32) (harg2 : arg2.IsWhole)
    (arg3 : Memref sig .tc .vmem S1024 .f32) (harg3 : arg3.IsWhole)
    (arg4 : Memref sig .tc .vmem S1024 .f32) (harg4 : arg4.IsWhole)
    (arg5 : Memref sig .tc .vmem S1024 .f32) (harg5 : arg5.IsWhole)
    (arg6 : Memref sig .tc .vmem S1x1 .f32) (harg6 : arg6.IsWhole)
    (hc : ¬isFirst i) (x0 : Vec F S1024 .f32) (x1 : Vec F S1024 .f32) (x2 : Vec F S1024 .f32) (x3 : Vec F S1024 .f32) (xo : Vec F S1x1 .f32) (y : S1x1.Idx) :
    ∃ pc ∈ (runLater c i arg2 harg2 arg3 harg3 arg4 harg4 arg5 harg5 arg6 harg6 hc x0 x1 x2 x3 xo).1, y ∈ pc.1.set :=
  View.cover_of_tiledL (runLater c i arg2 harg2 arg3 harg3 arg4 harg4 arg5 harg5 arg6 harg6 hc x0 x1 x2 x3 xo).1 S1x1.size (by sl_kernel_rfl) y

/-- Read back, the first point's stores are the body's sum term of the four blocks over the zero
    block: the later store covers the earlier, and its last operand is the earlier one read back. -/
theorem leftFirst (c : Dev nD) (i : grid0.Coords)
    (arg2 : Memref sig .tc .vmem S1024 .f32) (harg2 : arg2.IsWhole)
    (arg3 : Memref sig .tc .vmem S1024 .f32) (harg3 : arg3.IsWhole)
    (arg4 : Memref sig .tc .vmem S1024 .f32) (harg4 : arg4.IsWhole)
    (arg5 : Memref sig .tc .vmem S1024 .f32) (harg5 : arg5.IsWhole)
    (arg6 : Memref sig .tc .vmem S1x1 .f32) (harg6 : arg6.IsWhole)
    (hc : isFirst i) (x0 : Vec F S1024 .f32) (x1 : Vec F S1024 .f32) (x2 : Vec F S1024 .f32) (x3 : Vec F S1024 .f32) (f : arg6.view.ty.Contents (Elt F)) :
    arg6.view.read (Elt F) (arg6.view.writes (Elt F) f (runFirst c i arg2 harg2 arg3 harg3 arg4 harg4 arg5 harg5 arg6 harg6 hc x0 x1 x2 x3).1)
      = k0_pay2 x2 x3 x0 x1 (k0_pay1 (F := F)) := by
  rw [View.read_writes_eq_canon _ _ _ (coverFirst c i arg2 harg2 arg3 harg3 arg4 harg4 arg5 harg5 arg6 harg6 hc x0 x1 x2 x3)]
  unfold runFirst
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread,
    View.ld_unit_zero (S := S1024) hz1]

/-- Read back, a later point's store is the body's sum term of the four blocks over what the
    accumulator held. -/
theorem leftLater (c : Dev nD) (i : grid0.Coords)
    (arg2 : Memref sig .tc .vmem S1024 .f32) (harg2 : arg2.IsWhole)
    (arg3 : Memref sig .tc .vmem S1024 .f32) (harg3 : arg3.IsWhole)
    (arg4 : Memref sig .tc .vmem S1024 .f32) (harg4 : arg4.IsWhole)
    (arg5 : Memref sig .tc .vmem S1024 .f32) (harg5 : arg5.IsWhole)
    (arg6 : Memref sig .tc .vmem S1x1 .f32) (harg6 : arg6.IsWhole)
    (hc : ¬isFirst i) (x0 : Vec F S1024 .f32) (x1 : Vec F S1024 .f32) (x2 : Vec F S1024 .f32) (x3 : Vec F S1024 .f32) (xo : Vec F S1x1 .f32) (f : arg6.view.ty.Contents (Elt F)) :
    arg6.view.read (Elt F) (arg6.view.writes (Elt F) f (runLater c i arg2 harg2 arg3 harg3 arg4 harg4 arg5 harg5 arg6 harg6 hc x0 x1 x2 x3 xo).1)
      = k0_pay2 x2 x3 x0 x1 xo := by
  rw [View.read_writes_eq_canon _ _ _ (coverLater c i arg2 harg2 arg3 harg3 arg4 harg4 arg5 harg5 arg6 harg6 hc x0 x1 x2 x3 xo)]
  unfold runLater
  dsimp only
  sl_unfold_words
  rw [View.canon_unit_zero hz2]
  simp only [View.readAt_eq_ld, harg2.read_unread, harg3.read_unread, harg4.read_unread, harg5.read_unread,
    harg6.read_unread, View.ld_unit_zero (S := S1024) hz1, View.ld_unit_zero (S := S1x1) hz2]

/-! ## The running sum, point by point -/

/-- At the first point the running sum is the sum term of that point's blocks over the zero block. -/
theorem acc_first (c : Dev nD) (t : Fin cfg0.N) (h0 : t.val = 0) :
    acc m c t.val t.isLt = k0_pay2 (iblk m c 2 t) (iblk m c 3 t) (iblk m c 0 t) (iblk m c 1 t) (k0_pay1 (F := F)) := by
  obtain ⟨n, hn⟩ := t
  cases n with
  | zero => rfl
  | succ n => exact absurd h0 (Nat.succ_ne_zero n)

/-- At a later point it is the sum term of that point's blocks over the running sum of the point before. -/
theorem acc_later (c : Dev nD) (t : Fin cfg0.N) (h0 : t.val ≠ 0) :
    acc m c t.val t.isLt = k0_pay2 (iblk m c 2 t) (iblk m c 3 t) (iblk m c 0 t) (iblk m c 1 t) (acc m c (t.val - 1) (Nat.lt_of_le_of_lt (Nat.sub_le _ _) t.isLt)) := by
  obtain ⟨n, hn⟩ := t
  cases n with
  | zero => exact absurd rfl h0
  | succ n => rfl

/-! ## The body at a generic point -/

/-- Each window's current buffer at point t, as the pipeline passes it to the body, and its wholeness. -/
abbrev ms0 (t : Fin cfg0.N) : Memref sig .tc .vmem S1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)

/-- What the body is called with at point t: the invariant, what the core owes, and the five
    windows' current buffers one by one. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 800000 in
/-- The body at any point. The inputs' buffers hold their blocks; the point is the first or not.
    At the first the accumulator's buffer is handed over at whatever it holds and the first run
    applies; at a later one it holds the running sum of the point before and the later run
    applies. Either way the stores read back as the running sum at this point; the invariant and
    what the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  by_cases h0 : t.val = 0
  · rw [acc_first m c t h0]
    iintro ⟨HΦ, Ho, ⟨%d0, H0⟩, ⟨%d1, H1⟩, ⟨%d2, H2⟩, ⟨%d3, H3⟩, ⟨%d4, H4⟩⟩
    iapply ((runFirst c (grid0.coords t) (ms0 t) (hs0 t) (ms1 t) (hs1 t) (ms2 t) (hs2 t) (ms3 t) (hs3 t) (ms4 t) (hs4 t) ((isFirst_iff t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact leftFirst c (grid0.coords t) (ms0 t) (hs0 t) (ms1 t) (hs1 t) (ms2 t) (hs2 t) (ms3 t) (hs3 t) (ms4 t) (hs4 t) ((isFirst_iff t).mpr h0) (iblk m c 0 t) (iblk m c 1 t) (iblk m c 2 t) (iblk m c 3 t) e4
  · rw [acc_later m c t h0]
    simp only [before_4_later m c t h0]
    iintro ⟨HΦ, Ho, ⟨%d0, H0⟩, ⟨%d1, H1⟩, ⟨%d2, H2⟩, ⟨%d3, H3⟩, ⟨%d4, H4⟩⟩
    iapply ((runLater c (grid0.coords t) (ms0 t) (hs0 t) (ms1 t) (hs1 t) (ms2 t) (hs2 t) (ms3 t) (hs3 t) (ms4 t) (hs4 t) (fun h => h0 ((isFirst_iff t).mp h)) (iblk m c 0 t) (iblk m c 1 t) (iblk m c 2 t) (iblk m c 3 t) (acc m c (t.val - 1) (Nat.lt_of_le_of_lt (Nat.sub_le _ _) t.isLt))).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact leftLater c (grid0.coords t) (ms0 t) (hs0 t) (ms1 t) (hs1 t) (ms2 t) (hs2 t) (ms3 t) (hs3 t) (ms4 t) (hs4 t) (fun h => h0 ((isFirst_iff t).mp h)) (iblk m c 0 t) (iblk m c 1 t) (iblk m c 2 t) (iblk m c 3 t) (acc m c (t.val - 1) (Nat.lt_of_le_of_lt (Nat.sub_le _ _) t.isLt)) e4

/-- The pipeline's body obligation: the body at every point, the windows taken one by one. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Tail.lean ====
/-
  The host operations after the region, as one pure function: from the two counts np = Σ p and nn = Σ n and
  the 1 × 1 array ps the region wrote,

      d = np · nn,   valid = (d > 0),   result = if valid then 1 − ps / (if valid then d else 1) else 0.
-/
import proofs.«166591_j1717986918748_1_alg».proof.Proof.Gen.KernelIdeal

noncomputable section

namespace Cert.KernelIdeal.Hand

open Cert.KernelIdeal Idealize.ShloMosaic
open Cert.KernelIdeal.Facts₀

variable {F : FTy → Type} [FloatOps F]

/-- The closing arithmetic of @main, in the order its operations run. -/
def tailOf (np nn : (⟨S_, .f32⟩ : BufTy).Contents (Elt F)) (ps : (⟨S1x1, .f32⟩ : BufTy).Contents (Elt F)) :
    (⟨S_, .f32⟩ : BufTy).Contents (Elt F) :=
  select (cmpf (F := F) .ogt (mulf np nn) (constant (F := F) S_ .f32 0x00000000#32))
    (subf (constant (F := F) S_ .f32 0x3F800000#32)
      (Host.divf (shapeCast S_ ps shapeCasts_S1x1_S_)
        (select (cmpf (F := F) .ogt (mulf np nn) (constant (F := F) S_ .f32 0x00000000#32)) (mulf np nn)
          (id (constant (F := F) S_ .f32 0x3F800000#32)))))
    (id (constant (F := F) S_ .f32 0x00000000#32))

end Cert.KernelIdeal.Hand

end
-- ==== Proof.KI.Launch.lean ====
/-
  The launch of the pairwise soft-AUC program: @main as a list of segments.

  @main is thirteen host operations, ONE kernel region, and four more host stretches (thirteen operations).
  The region's five windows sit on FOUR arrays: windows 2 and 3 both read the scores array, each holding a
  half share of it. At the region's entry the scores array's full share is cut in two; at its exit the
  halves are joined again, and the 1 × 1 output array, now at the accumulator's last value, takes its place
  in the valuation the remaining host operations run from.
-/
import proofs.«166591_j1717986918748_1_alg».proof.Proof.KI.Data
import proofs.«166591_j1717986918748_1_alg».proof.Proof.KI.Tail
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

namespace Launch

/-- The pipeline library's algebra is the whole user component. -/
abbrev EP : Emb (UR sig nD τ) (MT nD τ sig Unit (Elt F) ℕ (UR sig nD τ) ℕ) := emb₁

abbrev 𝒱₀ : Variants := Variants.none
/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm

/-- What rides beside the buffers through every segment: the core owing nothing. -/
abbrev R (c : Dev nD) : sProp 𝕄 := iprop(∃ W, owes (c : Thread nD τ) (0 : CellTallies nD τ sig Unit) W)

/-- The TensorCore's unscoped buffers: the set every host stretch runs within. -/
abbrev uc : Finset (DevRef τ sig) := Pipeline.ucRefs τ sig

/-! ## The valuations between the segments -/

/-- Core c's buffers when the region is left: as it was entered, but for the output array, at the accumulator's last value. -/
def W₁ (c : Dev nD) : Valuation τ sig (Elt F) :=
  Function.update (StableHlo.after hostOps0 (V₀ m c)) (Proc.devRef .tc main_v10) ((dats m 0 c).arrAt 4 cfg0.N)

/-- and after each of the four host stretches that follow. -/
def W₂ (c : Dev nD) : Valuation τ sig (Elt F) := StableHlo.after hostOps1 (W₁ m c)
def W₃ (c : Dev nD) : Valuation τ sig (Elt F) := StableHlo.after hostOps1_1 (W₂ m c)
def W₄ (c : Dev nD) : Valuation τ sig (Elt F) := StableHlo.after hostOps1_2 (W₃ m c)
def W₅ (c : Dev nD) : Valuation τ sig (Elt F) := StableHlo.after hostOps1_3 (W₄ m c)

/-! ## The host segments -/

/-- A line of host operations over the unscoped buffers, from the valuation it is given. -/
def hostSeg (ops : List (HloOp τ sig (Elt F))) (hsub : ops.Forall fun op => op.bufs ⊆ StableHlo.tcRefs τ sig)
    (hf : ∀ op ∈ ops, op.fresh = ∅) (V : Dev nD → Valuation τ sig (Elt F)) :
    Pipeline.HostSeg (Name := ℕ) (U := UR sig nD τ) (pcfgs (F := F)) defs₀ 𝒱₀ L lv :=
  Pipeline.HostSeg.ofOps _ _ _ _ _ uc ops (fun op h => Pipeline.sub_ucRefs op ((List.forall_iff_forall_mem.mp hsub) op h)) hf V R

def seg0 : Pipeline.HostSeg (Name := ℕ) (U := UR sig nD τ) (pcfgs (F := F)) defs₀ 𝒱₀ L lv :=
  hostSeg hostOps0 hostOps0_sub (by intro _ h; (repeat (cases h with | head => rfl | tail _ h => ?_)); exact nomatch h) (V₀ m)
def seg1 : Pipeline.HostSeg (Name := ℕ) (U := UR sig nD τ) (pcfgs (F := F)) defs₀ 𝒱₀ L lv :=
  hostSeg hostOps1 hostOps1_sub (by intro _ h; (repeat (cases h with | head => rfl | tail _ h => ?_)); exact nomatch h) (W₁ m)
def seg2 : Pipeline.HostSeg (Name := ℕ) (U := UR sig nD τ) (pcfgs (F := F)) defs₀ 𝒱₀ L lv :=
  hostSeg hostOps1_1 hostOps1_1_sub (by intro _ h; (repeat (cases h with | head => rfl | tail _ h => ?_)); exact nomatch h) (W₂ m)
def seg3 : Pipeline.HostSeg (Name := ℕ) (U := UR sig nD τ) (pcfgs (F := F)) defs₀ 𝒱₀ L lv :=
  hostSeg hostOps1_2 hostOps1_2_sub (by intro _ h; (repeat (cases h with | head => rfl | tail _ h => ?_)); exact nomatch h) (W₃ m)
def seg4 : Pipeline.HostSeg (Name := ℕ) (U := UR sig nD τ) (pcfgs (F := F)) defs₀ 𝒱₀ L lv :=
  hostSeg hostOps1_3 hostOps1_3_sub (by intro _ h; (repeat (cases h with | head => rfl | tail _ h => ?_)); exact nomatch h) (W₄ m)

/-! ## What the valuations hold -/

theorem W₁_of_ne (c : Dev nD) (b : Ref sig .tc) (hb : b ≠ main_v10) : W₁ m c (Proc.devRef .tc b) = V m c b := by
  unfold W₁
  rw [Function.update_of_ne (StableHlo.devRef_ne_of_ne hb)]
  rfl

theorem W₁_v10 (c : Dev nD) : W₁ m c (Proc.devRef .tc main_v10) = (dats m 0 c).arrAt 4 cfg0.N := by
  unfold W₁; rw [Function.update_self]

theorem mem_uc (b : Ref sig .tc) (hb : b.isScoped = false) : Proc.devRef (τ := τ) .tc b ∈ (uc : Finset (DevRef τ sig)) :=
  Finset.mem_filter.mpr ⟨StableHlo.devRef_mem_tcRefs b, fun h => Bool.false_ne_true (hb.symm.trans h)⟩

/-- The result buffer after the last stretch: the closing arithmetic of the two counts and the accumulator's last value. -/
theorem W₅_v17 (c : Dev nD) :
    W₅ m c (Proc.devRef .tc main_v17) = tailOf (V m c main_v8) (V m c main_v9) ((dats m 0 c).arrAt 4 cfg0.N) := by
  unfold W₅ W₄ W₃ W₂
  after_results
  rw [W₁_of_ne m c main_v8 (by decide), W₁_of_ne m c main_v9 (by decide), W₁_v10]
  rfl

/-- No operation writes an argument. -/
theorem W₅_arg0 (c : Dev nD) : W₅ m c (Proc.devRef .tc main_arg0) = m ((c : Thread nD τ).loc main_arg0) := by
  unfold W₅ W₄ W₃ W₂
  after_results
  rw [W₁_of_ne m c main_arg0 (by decide), V_eq]
  after_results

theorem W₅_arg1 (c : Dev nD) : W₅ m c (Proc.devRef .tc main_arg1) = m ((c : Thread nD τ).loc main_arg1) := by
  unfold W₅ W₄ W₃ W₂
  after_results
  rw [W₁_of_ne m c main_arg1 (by decide), V_eq]
  after_results

/-! ## The four arrays behind the five windows -/

/-- The buffers behind the windows, listed: four, the scores array counted once. -/
theorem arrBufs_chain (c : Dev nD) (G : (b : Ref sig .tc) → Buf (Elt F) ((c : Thread nD τ).loc b)) :
    (Pipeline.arrBufs (Ix := Unit) (Name := ℕ) (U := UR sig nD τ) (Lvl := ℕ) spec0 c G : sProp 𝕄)
      = iprop((((c : Thread nD τ).loc main_v7) ↦{fullShare} G main_v7) ∗ (((c : Thread nD τ).loc main_v5) ↦{fullShare} G main_v5)
          ∗ (((c : Thread nD τ).loc main_v4) ↦{fullShare} G main_v4) ∗ (((c : Thread nD τ).loc main_v10) ↦{fullShare} G main_v10)) := by
  unfold Pipeline.arrBufs
  exact bigSep_eq_bigSepL_of_eq [main_v7, main_v5, main_v4, main_v10] (by decide) (by decide) _

/-- The windows' arrays, window by window: the two masks whole, the scores array a half for each of its two windows,
    the output whole. -/
theorem arrays_chain (c : Dev nD) (G : (w : Fin cfg0.W) → Buf (Elt F) ((cfg0.win w).arr.view.loc (c : Thread nD τ))) :
    ((dats m 0 c).arrays G : sProp 𝕄)
      = iprop((((c : Thread nD τ).loc main_v7) ↦{fullShare} G 0) ∗ (((c : Thread nD τ).loc main_v5) ↦{fullShare} G 1)
          ∗ (((c : Thread nD τ).loc main_v4) ↦{fullShare.left} G 2) ∗ (((c : Thread nD τ).loc main_v4) ↦{fullShare.right} G 3)
          ∗ (((c : Thread nD τ).loc main_v10) ↦{fullShare} G 4)) := by
  unfold Dat.arrays
  rw [bigSep_W0]
  have hs0 : (dats m 0 c).share 0 = fullShare := by unfold Dat.share; rfl
  have hs1 : (dats m 0 c).share 1 = fullShare := by unfold Dat.share; rfl
  have hs2 : (dats m 0 c).share 2 = fullShare.left := by unfold Dat.share; rfl
  have hs3 : (dats m 0 c).share 3 = fullShare.right := by unfold Dat.share; rfl
  have hs4 : (dats m 0 c).share 4 = fullShare := by unfold Dat.share; rfl
  rw [hs0, hs1, hs2, hs3, hs4]
  exact congrArg₂ BI.sep (by rw [(arr_whole0 0).set_eq_univ]) (congrArg₂ BI.sep (by rw [(arr_whole0 1).set_eq_univ])
    (congrArg₂ BI.sep (by rw [(arr_whole0 2).set_eq_univ]) (congrArg₂ BI.sep (by rw [(arr_whole0 3).set_eq_univ])
      (by rw [(arr_whole0 4).set_eq_univ]))))

/-! ## The region's entry and exit, the arrays' part -/

/-- ENTRY: the unscoped buffers as the first stretch left them are the windows' arrays at their entry contents — the
    scores array's full share cut into the halves its two windows hold — and the unscoped rest. -/
theorem entry_arrays (c : Dev nD) :
    (unscopedBufs (Ix := Unit) (Name := ℕ) (U := UR sig nD τ) (Lvl := ℕ) c (V m c) : sProp 𝕄)
      ⊢ iprop((dats m 0 c).arrays ((dats m 0 c).arrAt · 0)
          ∗ Pipeline.unscopedRest (Ix := Unit) (Name := ℕ) (U := UR sig nD τ) (Lvl := ℕ) spec0 c (V m c)) := by
  rw [Pipeline.unscopedBufs_split₀ cfgs 0 winFacts₀0.arr_unscoped c (V m c), arrBufs_chain, arrays_chain]
  iintro ⟨⟨H7, H5, H4, H10⟩, Hrest⟩
  ihave H4' := (pointsTo_share (PosShare.mem_left_op_right fullShare)).1 $$ H4
  icases H4' with ⟨H4l, H4r⟩
  isplitr [Hrest]
  · isplitl [H7]; · iexact H7
    isplitl [H5]; · iexact H5
    isplitl [H4l]; · iexact H4l
    isplitl [H4r]; · iexact H4r
    iexact H10
  iexact Hrest

/-- The unscoped buffers that are no window's array hold at the exit valuation what they held at entry: it differs
    at the output array alone. -/
theorem unscopedRest_W₁ (c : Dev nD) :
    (Pipeline.unscopedRest (Ix := Unit) (Name := ℕ) (U := UR sig nD τ) (Lvl := ℕ) spec0 c (fun b => W₁ m c b) : sProp 𝕄)
      = Pipeline.unscopedRest (Ix := Unit) (Name := ℕ) (U := UR sig nD τ) (Lvl := ℕ) spec0 c (V m c) := by
  unfold Pipeline.unscopedRest
  exact bigSep_congr fun b hb => by
    have hne : b ≠ main_v10 := fun h => (Finset.mem_sdiff.mp hb).2 (by
      rw [h]; exact Finset.mem_image.mpr ⟨4, Finset.mem_univ _, rfl⟩)
    beta_reduce
    rw [W₁_of_ne m c b hne]

/-- EXIT: the arrays at their last contents — the inputs as they were, the halves of the scores array joined again, the
    output at the accumulator's last value — and the unscoped rest are the unscoped buffers at the valuation the next
    stretch runs from. -/
theorem exit_arrays (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ (StableHlo.held (c : Thread nD τ) uc (W₁ m c) : sProp 𝕄) := by
  rw [← Pipeline.unscopedBufs_held c (W₁ m c), Pipeline.unscopedBufs_split₀ cfgs 0 winFacts₀0.arr_unscoped c (fun b => W₁ m c b),
    arrBufs_chain, arrays_chain, unscopedRest_W₁]
  beta_reduce
  rw [W₁_of_ne m c main_v7 (by decide), W₁_of_ne m c main_v5 (by decide), W₁_of_ne m c main_v4 (by decide), W₁_v10,
    (dats m 0 c).arrAt_in 0 rfl, (dats m 0 c).arrAt_in 1 rfl, (dats m 0 c).arrAt_in 2 rfl, (dats m 0 c).arrAt_in 3 rfl,
    A_eq, A_eq, A_eq, A_eq]
  iintro ⟨⟨H7, H5, H4l, H4r, H10⟩, Hrest⟩
  ihave H4 := (pointsTo_share (PosShare.mem_left_op_right fullShare)).2 $$ [H4l H4r]
  · isplitl [H4l] <;> iassumption
  isplitr [Hrest]
  · isplitl [H7]; · iexact H7
    isplitl [H5]; · iexact H5
    isplitl [H4]; · iexact H4
    iexact H10
  iexact Hrest

/-! ## The region -/

variable (hbody : ∀ c, BodyObligation (dats (F := F) m 0 c) (defs₀ (F := F)) Variants.none () Set.univ)

set_option backward.isDefEq.respectTransparency.types false in
/-- THE REGION: entered from what the first host stretch left — the four arrays into the pipeline, the scores array's
    share cut in two for the two windows on it, every other unscoped buffer bypassing —, left with the output array at
    the accumulator's last value and everything else as it was. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (hbody c).loose
  hwaits := Pipeline.hwaits_of_owed_zero _ _ _ _ L lv 0 fun _ _ => rfl
  pre c := iprop(StableHlo.held (c : Thread nD τ) uc (StableHlo.after hostOps0 (V₀ m c)) ∗ R c)
  post c := iprop(StableHlo.held (c : Thread nD τ) uc (W₁ m c) ∗ R c)
  X c := iprop(emp)
  Y c := iprop(emp)
  Z c := Pipeline.unscopedRest (Ix := Unit) (Name := ℕ) (U := UR sig nD τ) (Lvl := ℕ) spec0 c (V m c)
  hentry c := by
    rw [show StableHlo.held (c : Thread nD τ) uc (StableHlo.after hostOps0 (V₀ m c)) = unscopedBufs c (V m c) from (Pipeline.unscopedBufs_held c _).symm]
    iintro ⟨⟨Hub, HO⟩, -, -⟩
    ihave H := (entry_arrays m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [Φ_eq]
    iintro ⟨-, -, Hr⟩
    iexact Hr
  hout c := by
    rw [Φ_eq, Pipeline.ownSems0_none]
    iintro Hr
    isplitr; · iempintro
    isplitr; · iempintro
    iexact Hr
  hexit c := by
    iintro ⟨Ha, HO, -, HZ⟩
    imodintro
    isplitr [HO]
    · iapply (exit_arrays m c)
      isplitl [Ha] <;> iassumption
    · unfold Pipeline.Dat.owesAt Pipeline.owesWithin
      icases HO with ⟨%W, -, HO⟩; iexists W; iexact HO

/-- @main as the list of the six. -/
abbrev segs : List (Pipeline.Seg (pcfgs (F := F)) adm (dats m) () defs₀ 𝒱₀ L lv) :=
  [.host (seg0 m), .region (reg0 m hbody), .host (seg1 m), .host (seg2 m), .host (seg3 m), .host (seg4 m)]

end Launch

open Launch

set_option backward.isDefEq.respectTransparency.types false in
/-- At the compiled mesh, for any float values, from any memory with zero counters: every weakly fair execution of
    @main on the TensorCores terminates, and every final state has the result buffer at the closing arithmetic of the
    two counts and the accumulator's last value, and both arguments as they were. -/
theorem run_main (hbody : ∀ c, BodyObligation (dats (F := F) m 0 c) (defs₀ (F := F)) Variants.none () Set.univ) (ρ : Dev nD → PrngReg) :
    θ_run defs (onTc (τ := τ) (main (F := F))) ⟨m, fun _ => 0, ρ⟩ (fun r => ∀ c : Dev nD,
      r.2.mem ((c.tc : Thread nD τ).loc main_v17) = tailOf (V m c main_v8) (V m c main_v9) ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (dats m) () cellOf_inj EP defs₀ 𝒱₀ L lv m ρ main (segs m hbody)
    (fun c Q => by
      have h : main (F := F) c = Pipeline.Seg.run (segs m hbody) := by
        rw [main_chain c, Pipeline.Seg.run_eq_chain]; rfl
      rw [h])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (EP (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) uc (V₀ m c) ∗ R c)) (Tₙ := fun c => StableHlo.held (c : Thread nD τ) uc (W₅ m c))
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) uc (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v17) = W₅ m c (Proc.devRef .tc main_v17)
      ∧ s.mem ((c : Thread nD τ).loc main_arg0) = W₅ m c (Proc.devRef .tc main_arg0)
      ∧ s.mem ((c : Thread nD τ).loc main_arg1) = W₅ m c (Proc.devRef .tc main_arg1))
    (hfin := fun c s' => by
      unfold StableHlo.held
      iintro ⟨Hh, HSI⟩
      ihave Hr := (pointsTo_read_all uc (fun b => ((c : Thread nD τ).1, b)) (W₅ m c) s') $$ [Hh HSI]
      · isplitl [Hh] <;> iassumption
      icases Hr with ⟨%h, HSI⟩
      imodintro
      isplitr
      · ipureintro
        exact ⟨h _ (mem_uc main_v17 rfl), h _ (mem_uc main_arg0 rfl), h _ (mem_uc main_arg1 rfl)⟩
      iexact HSI)
    (hQ := fun s h c => ⟨(h c).1.trans (W₅_v17 m c), (h c).2.1.trans (W₅_arg0 m c), (h c).2.2.trans (W₅_arg1 m c)⟩)

end Cert.KernelIdeal.Hand

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.KI.PayloadAt.lean ====
/-
  The body's arithmetic read at its one output index, on the extended reals.

  The body's sum term takes the row scores and the column scores of the point's tile, the row "negative"
  mask and the column "positive" mask, and what the accumulator held; it returns, at the single index of
  the 1 × 1 block, the accumulator plus the tile's double sum over rows r and columns c of
  logistic(s_col c − s_row r) · (neg r · pos c). The zero payload is zero there.
-/
import proofs.«166591_j1717986918748_1_alg».proof.Proof.Gen.KernelIdeal.Skeleton
import proofs.«166591_j1717986918748_1_alg».proof.Proof.LibRowOps
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.HandValue

open Cert.KernelIdeal Cert.KernelIdeal.Gen
open Idealize.ShloMosaic Idealize.ShloMosaic.ValueIdx

/-- A length-1024 vector laid as the one row of a 1 × 1024 array and repeated down 1024 rows: at (r, c) it
    is the vector's entry c. -/
theorem rowSpread_apply (v : FVec Ideal S1024 .f32) (r c : Fin 1024) :
    broadcastTo S1024x1024 (shapeCast S1x1024 (shapeCast S1024 v shapeCasts_S1024_S1024) shapeCasts_S1024_S1x1024)
        broadcasts_S1x1024_S1024x1024 (ix2 r c) = v (ix1 c) := by
  rw [broadcastTo_1b_ab_apply, shapeCast_a_1a_apply, shapeCast_self]

/-- A length-1024 vector laid as the one column of a 1024 × 1 array and repeated across 1024 columns: at
    (r, c) it is the vector's entry r. -/
theorem colSpread_apply (v : FVec Ideal S1024 .f32) (r c : Fin 1024) :
    broadcastTo S1024x1024 (shapeCast S1024x1 (shapeCast S1024 v shapeCasts_S1024_S1024) shapeCasts_S1024_S1024x1)
        broadcasts_S1024x1_S1024x1024 (ix2 r c) = v (ix1 r) := by
  rw [Cert.RowOps.broadcastTo_a1_ab_apply, Cert.RowOps.shapeCast_a_a1_apply, shapeCast_self]

/-- The logistic of a vector, read at an index, is the logistic of the entry there. -/
theorem logistic_apply {s : Shape} {φ : FTy} (a : FVec Ideal s φ) (i : s.Idx) : logistic a i = Ideal.logistic (a i) := rfl

/-- The tile's 1024 × 1024 array of terms: the logistic of the score difference times the product of the
    two masks. -/
def tileTerm (srow scol neg pos : FVec Ideal S1024 .f32) : FVec Ideal S1024x1024 .f32 :=
  mulf
    (logistic (subf
      (broadcastTo S1024x1024 (shapeCast S1x1024 (shapeCast S1024 scol shapeCasts_S1024_S1024) shapeCasts_S1024_S1x1024)
        broadcasts_S1x1024_S1024x1024)
      (broadcastTo S1024x1024 (shapeCast S1024x1 (shapeCast S1024 srow shapeCasts_S1024_S1024) shapeCasts_S1024_S1024x1)
        broadcasts_S1024x1_S1024x1024)))
    (mulf
      (broadcastTo S1024x1024 (shapeCast S1024x1 (shapeCast S1024 neg shapeCasts_S1024_S1024) shapeCasts_S1024_S1024x1)
        broadcasts_S1024x1_S1024x1024)
      (broadcastTo S1024x1024 (shapeCast S1x1024 (shapeCast S1024 pos shapeCasts_S1024_S1024) shapeCasts_S1024_S1x1024)
        broadcasts_S1x1024_S1024x1024))

/-- The term at row r and column c. -/
theorem tileTerm_apply (srow scol neg pos : FVec Ideal S1024 .f32) (r c : Fin 1024) :
    (tileTerm srow scol neg pos (ix2 r c) : EReal)
      = Ideal.logistic ((scol (ix1 c) : EReal) - (srow (ix1 r) : EReal)) * ((neg (ix1 r) : EReal) * (pos (ix1 c) : EReal)) := by
  unfold tileTerm
  rw [mulf_apply, mulf_apply, logistic_apply, subf_apply, rowSpread_apply, colSpread_apply, colSpread_apply, rowSpread_apply]

/-- The sum of each row of the tile's terms. -/
def rowSums (srow scol neg pos : FVec Ideal S1024 .f32) : FVec Ideal S1024 .f32 :=
  multiReduction (F := Ideal) .add [1] S1024 (tileTerm srow scol neg pos) 0x00000000#32 reduces_S1024x1024_S1024 (.inl rfl) rfl

/-- Row r's sum is the sum of that row's terms over the columns. -/
theorem rowSums_apply (srow scol neg pos : FVec Ideal S1024 .f32) (r : Fin 1024) :
    rowSums srow scol neg pos (ix1 r) = ∑ c : Fin 1024, tileTerm srow scol neg pos (ix2 r c) :=
  Cert.RowOps.laneSum_apply _ _ _ _ _ r

/-- The row sums laid as one row of 1024 entries and summed along it: a vector of one entry. -/
def total (srow scol neg pos : FVec Ideal S1024 .f32) : FVec Ideal S1 .f32 :=
  multiReduction (F := Ideal) .add [1] S1 (shapeCast S1x1024 (rowSums srow scol neg pos) shapeCasts_S1024_S1x1024)
    0x00000000#32 reduces_S1x1024_S1 (.inl rfl) rfl

/-- That one entry is the double sum of the tile's terms. -/
theorem total_apply (srow scol neg pos : FVec Ideal S1024 .f32) (u : Fin 1) :
    total srow scol neg pos (ix1 u) = ∑ r : Fin 1024, ∑ c : Fin 1024, tileTerm srow scol neg pos (ix2 r c) := by
  refine (Cert.RowOps.laneSum_apply _ _ _ _ _ u).trans ?_
  refine Finset.sum_congr rfl fun r _ => ?_
  rw [shapeCast_a_1a_apply, rowSums_apply]

/-- Reading a 1 × 1 array at the static position (0, 0) is reading it at its one index. -/
theorem extract00 {α : Type} (x : S1x1.Idx → α) (h : ∀ a, (![0, 0] : Fin 2 → Nat) a < S1x1.size a) :
    extractAt ![0, 0] x h = x (ix2 (0 : Fin 1) (0 : Fin 1)) := by
  unfold extractAt
  refine congrArg x (funext fun a => Fin.ext ?_)
  match a with
  | ⟨0, _⟩ => rfl
  | ⟨1, _⟩ => rfl

/-- The zero the first point stores, at the block's index. -/
theorem pay1_apply (y : S1x1.Idx) : (k0_pay1 (F := Ideal) y : EReal) = 0 := by
  unfold k0_pay1
  rw [broadcast_apply]
  exact Ideal.ofBits_zero_f32

/-- The body's sum term is the accumulator plus the one-entry total spread over the 1 × 1 block. -/
theorem pay2_eq (srow scol neg pos : Vec Ideal S1024 .f32) (prev : Vec Ideal S1x1 .f32) :
    k0_pay2 (F := Ideal) srow scol neg pos prev
      = addf (shapeCast S1x1 prev shapeCasts_S1x1_S1x1)
          (broadcast S1x1 (extractAt ![0, 0] (shapeCast S1x1 (total srow scol neg pos) shapeCasts_S1_S1x1) inpos_S1x1_p0_0)) := rfl

/-- The body's sum term at the block's index: what the accumulator held plus the tile's double sum. -/
theorem pay2_apply (srow scol neg pos : Vec Ideal S1024 .f32) (prev : Vec Ideal S1x1 .f32) (y : S1x1.Idx) :
    (k0_pay2 (F := Ideal) srow scol neg pos prev y : EReal)
      = (prev y : EReal) + ∑ r : Fin 1024, ∑ c : Fin 1024,
          Ideal.logistic ((scol (ix1 c) : EReal) - (srow (ix1 r) : EReal)) * ((neg (ix1 r) : EReal) * (pos (ix1 c) : EReal)) := by
  rw [pay2_eq, addf_apply, broadcast_apply, shapeCast_self, extract00, shapeCast_a_1a_apply, total_apply]
  refine congrArg (prev y + ·) ?_
  exact Finset.sum_congr rfl fun r _ => Finset.sum_congr rfl fun c _ => tileTerm_apply srow scol neg pos r c

end Cert.KernelIdeal.HandValue

end
-- ==== Proof.Spec.lean ====
/-
  The mathematics both programs compute, with no program in sight.

  From the logits x (16384 × 2) and the labels: the scores s a = x a 1 − x a 0, the positive mask
  p a ∈ {0, 1} and the negative mask n a = 1 − p a. The pair sum is

      pairSum s p n = Σ_a Σ_b logistic(s b − s a) · (n a · p b)        (a the row, b the column),

  over all 16384 × 16384 pairs. The reference sums the whole square at once; the kernel walks it in
  256 tiles of 1024 × 1024, tile t = 16·i + j covering rows 1024·i + r and columns 1024·j + c, and adds
  the tiles' sums one after the other. On the extended reals addition is commutative and associative
  (it is a commutative monoid: nothing here needs finiteness), so the two agree: tiledSum_eq.
-/
import Idealize.ShloMosaic.PureOps.Ideal
import Mathlib.Algebra.BigOperators.Fin
import Mathlib.Algebra.BigOperators.Group.Finset.Sigma
import Mathlib.Logic.Equiv.Fin.Basic

noncomputable section

namespace Cert.Spec

open Idealize.ShloMosaic

/-- One pair's term: the logistic of the score difference, weighted by "row negative and column positive". -/
def pairTerm (s p n : Fin 16384 → EReal) (a b : Fin 16384) : EReal :=
  Ideal.logistic (s b - s a) * (n a * p b)

/-- The sum over all pairs, rows outside, columns inside. -/
def pairSum (s p n : Fin 16384 → EReal) : EReal :=
  ∑ a : Fin 16384, ∑ b : Fin 16384, pairTerm s p n a b

/-- Row r of row block i, as an index of the whole array. -/
def rowOf (i : Fin 16) (r : Fin 1024) : Fin 16384 := ⟨1024 * i.val + r.val, by omega⟩

/-- One tile's sum: rows of block i against columns of block j, rows outside (a lane sum per row, then the sum of the row sums). -/
def tileSum (s p n : Fin 16384 → EReal) (i j : Fin 16) : EReal :=
  ∑ r : Fin 1024, ∑ c : Fin 1024, pairTerm s p n (rowOf i r) (rowOf j c)

/-- The tiles' sums added in the grid's order, t = 16·i + j. -/
def tiledSum (s p n : Fin 16384 → EReal) : EReal :=
  ∑ t : Fin 256, tileSum s p n ⟨t.val / 16, by omega⟩ ⟨t.val % 16, by omega⟩

end Cert.Spec

end
-- ==== Proof.SpecLaws.lean ====
/-
  The tiling law: the 256 tiles' sums, added in the grid's order, are the sum over the whole square.
  Rows 1024·i + r (i < 16, r < 1024) are all of the 16384 rows, each once, and the same for columns;
  tile t = 16·i + j is the pair (i, j), each once. Addition on the extended reals is commutative and
  associative, so regrouping a finite sum changes nothing.
-/
import proofs.«166591_j1717986918748_1_alg».proof.Proof.Spec
import Mathlib.Algebra.BigOperators.Group.Finset.Defs
import Mathlib.Algebra.BigOperators.Group.Finset.Sigma
import Mathlib.Data.Fintype.BigOperators
import Mathlib.Data.EReal.Basic

noncomputable section

namespace Cert.Spec

/-- Division with remainder by 1024: (i, r) ↦ 1024·i + r pairs a block and an offset with each of the
16384 indices exactly once; the way back is a ↦ (a / 1024, a % 1024). -/
def rowEquiv : Fin 16 × Fin 1024 ≃ Fin 16384 where
  toFun x := rowOf x.1 x.2
  invFun a := (⟨a.val / 1024, by omega⟩, ⟨a.val % 1024, by omega⟩)
  left_inv x := by
    obtain ⟨⟨i, hi⟩, ⟨r, hr⟩⟩ := x
    refine Prod.ext (Fin.ext ?_) (Fin.ext ?_)
    · show (1024 * i + r) / 1024 = i
      omega
    · show (1024 * i + r) % 1024 = r
      omega
  right_inv a := by
    obtain ⟨a, ha⟩ := a
    refine Fin.ext ?_
    show 1024 * (a / 1024) + a % 1024 = a
    omega

/-- Division with remainder by 16: t ↦ (t / 16, t % 16) pairs each of the 256 tiles with a row block and
a column block exactly once; the way back is (i, j) ↦ 16·i + j. -/
def tileEquiv : Fin 256 ≃ Fin 16 × Fin 16 where
  toFun t := (⟨t.val / 16, by omega⟩, ⟨t.val % 16, by omega⟩)
  invFun x := ⟨16 * x.1.val + x.2.val, by omega⟩
  left_inv t := by
    obtain ⟨t, ht⟩ := t
    refine Fin.ext ?_
    show 16 * (t / 16) + t % 16 = t
    omega
  right_inv x := by
    obtain ⟨⟨i, hi⟩, ⟨j, hj⟩⟩ := x
    refine Prod.ext (Fin.ext ?_) (Fin.ext ?_)
    · show (16 * i + j) / 16 = i
      omega
    · show (16 * i + j) % 16 = j
      omega

section Regroup

variable {M : Type*} [AddCommMonoid M]

/-- A sum over all 16384 indices is the sum over the blocks of the sums over each block's offsets. -/
theorem sum_rows (g : Fin 16384 → M) :
    ∑ a : Fin 16384, g a = ∑ i : Fin 16, ∑ r : Fin 1024, g (rowOf i r) :=
  calc ∑ a : Fin 16384, g a
      = ∑ x : Fin 16 × Fin 1024, g (rowOf x.1 x.2) :=
        (Fintype.sum_equiv rowEquiv (fun x => g (rowOf x.1 x.2)) g (fun _ => rfl)).symm
    _ = ∑ i : Fin 16, ∑ r : Fin 1024, g (rowOf i r) :=
        Fintype.sum_prod_type' (fun i r => g (rowOf i r))

/-- A sum over the 256 tiles in the grid's order is the double sum over row blocks and column blocks. -/
theorem sum_tiles (F : Fin 16 → Fin 16 → M) :
    ∑ t : Fin 256, F ⟨t.val / 16, by omega⟩ ⟨t.val % 16, by omega⟩ = ∑ i : Fin 16, ∑ j : Fin 16, F i j :=
  calc ∑ t : Fin 256, F ⟨t.val / 16, by omega⟩ ⟨t.val % 16, by omega⟩
      = ∑ x : Fin 16 × Fin 16, F x.1 x.2 :=
        Fintype.sum_equiv tileEquiv _ (fun x => F x.1 x.2) (fun _ => rfl)
    _ = ∑ i : Fin 16, ∑ j : Fin 16, F i j := Fintype.sum_prod_type' F

/-- The regrouping for any doubly indexed family in a commutative monoid: tiles in grid order, each
summed rows outside and columns inside, against the whole square summed rows outside. The tiles split
into (row block, column block); inside a row block the column block and the row offset trade places;
then block and offset fuse into one index, first for the columns and then for the rows. -/
theorem tiled_eq_square (f : Fin 16384 → Fin 16384 → M) :
    ∑ t : Fin 256, ∑ r : Fin 1024, ∑ c : Fin 1024,
        f (rowOf ⟨t.val / 16, by omega⟩ r) (rowOf ⟨t.val % 16, by omega⟩ c)
      = ∑ a : Fin 16384, ∑ b : Fin 16384, f a b :=
  calc ∑ t : Fin 256, ∑ r : Fin 1024, ∑ c : Fin 1024,
          f (rowOf ⟨t.val / 16, by omega⟩ r) (rowOf ⟨t.val % 16, by omega⟩ c)
      = ∑ i : Fin 16, ∑ j : Fin 16, ∑ r : Fin 1024, ∑ c : Fin 1024, f (rowOf i r) (rowOf j c) :=
        sum_tiles (fun i j => ∑ r : Fin 1024, ∑ c : Fin 1024, f (rowOf i r) (rowOf j c))
    _ = ∑ i : Fin 16, ∑ r : Fin 1024, ∑ j : Fin 16, ∑ c : Fin 1024, f (rowOf i r) (rowOf j c) :=
        Finset.sum_congr rfl (fun _ _ => Finset.sum_comm)
    _ = ∑ i : Fin 16, ∑ r : Fin 1024, ∑ b : Fin 16384, f (rowOf i r) b :=
        Finset.sum_congr rfl (fun i _ => Finset.sum_congr rfl (fun r _ => (sum_rows (f (rowOf i r))).symm))
    _ = ∑ a : Fin 16384, ∑ b : Fin 16384, f a b :=
        (sum_rows (fun a => ∑ b : Fin 16384, f a b)).symm

end Regroup

theorem tiledSum_eq (s p n : Fin 16384 → EReal) : tiledSum s p n = pairSum s p n :=
  tiled_eq_square (pairTerm s p n)

end Cert.Spec

end
-- ==== Proof.KI.KernelSum.lean ====
/-
  What the region leaves in the 1 × 1 result array, on the extended reals: the sum over all pairs.

  The output block is written back once, after the last point, so the array holds the accumulator after
  point 255. Unfolding the accumulator point by point, each step adds one tile's double sum, the tile's rows
  and columns being blocks of the three vectors the region finds (the scores, the positive mask, the negative
  mask): row r of block i is entry 1024·i + r. The 256 tiles' sums added in order are the sum over the
  whole square (the tiling law).
-/
import proofs.«166591_j1717986918748_1_alg».proof.Proof.KI.Data
import proofs.«166591_j1717986918748_1_alg».proof.Proof.KI.PayloadAt
import proofs.«166591_j1717986918748_1_alg».proof.Proof.SpecLaws
import Idealize.ShloMosaic.Lib.Pipeline.Value
import Idealize.ShloMosaic.Lib.ValueIdx
import Mathlib.Algebra.BigOperators.Fin

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

variable (m : (ℓ : Loc nD τ sig) → Buf (Elt Ideal) ℓ)

/-- The scores, the positive mask and the negative mask as the region finds them, entry by entry. -/
def sAt (c : Dev nD) (a : Fin 16384) : EReal := (V m c main_v4 : Vec Ideal S16384 .f32) (ix1 a)
def pAt (c : Dev nD) (a : Fin 16384) : EReal := (V m c main_v5 : Vec Ideal S16384 .f32) (ix1 a)
def nAt (c : Dev nD) (a : Fin 16384) : EReal := (V m c main_v7 : Vec Ideal S16384 .f32) (ix1 a)

/-! ## Which block each window reads at a point -/

/-- At point t = 16·i + j the two row windows (the negative mask and the scores) read block i = t / 16, the two
    column windows (the positive mask and the scores) block j = t % 16. Decided over the 256 points. -/
theorem block_index : ∀ t : Fin cfg0.N,
    win0_0.index t (0 : Fin 1) = t.val / 16 ∧ win0_1.index t (0 : Fin 1) = t.val % 16
      ∧ win0_2.index t (0 : Fin 1) = t.val / 16 ∧ win0_3.index t (0 : Fin 1) = t.val % 16 :=
  (by decide +kernel : ∀ t : Fin grid0.N,
    win0_0.index t (0 : Fin 1) = t.val / 16 ∧ win0_1.index t (0 : Fin 1) = t.val % 16
      ∧ win0_2.index t (0 : Fin 1) = t.val / 16 ∧ win0_3.index t (0 : Fin 1) = t.val % 16)

/-- Entry r of the negative mask's block at point t is entry 1024·(t / 16) + r of the mask: an element of a block
    sits in the array at block index × block size + its place in the block. -/
theorem neg_block (c : Dev nD) (t : Fin cfg0.N) (r : Fin 1024) (a : Fin 16384) (ha : a.val = 1024 * (t.val / 16) + r.val) :
    ((iblk m c 0 t : Vec Ideal S1024 .f32) (ix1 r) : EReal) = nAt m c a := by
  unfold iblk nAt
  rw [View.read_apply]
  show V m c main_v7 _ = V m c main_v7 _
  congr 1
  funext d
  apply Fin.ext
  match d with
  | ⟨0, _⟩ => show win0_0.index t 0 * 1024 + 1 * r.val = a.val; rw [(block_index t).1, ha]; omega

/-- Entry k of the positive mask's block at point t is entry 1024·(t % 16) + k of the mask. -/
theorem pos_block (c : Dev nD) (t : Fin cfg0.N) (k : Fin 1024) (b : Fin 16384) (hb : b.val = 1024 * (t.val % 16) + k.val) :
    ((iblk m c 1 t : Vec Ideal S1024 .f32) (ix1 k) : EReal) = pAt m c b := by
  unfold iblk pAt
  rw [View.read_apply]
  show V m c main_v5 _ = V m c main_v5 _
  congr 1
  funext d
  apply Fin.ext
  match d with
  | ⟨0, _⟩ => show win0_1.index t 0 * 1024 + 1 * k.val = b.val; rw [(block_index t).2.1, hb]; omega

/-- Entry r of the row scores' block at point t is entry 1024·(t / 16) + r of the scores. -/
theorem srow_block (c : Dev nD) (t : Fin cfg0.N) (r : Fin 1024) (a : Fin 16384) (ha : a.val = 1024 * (t.val / 16) + r.val) :
    ((iblk m c 2 t : Vec Ideal S1024 .f32) (ix1 r) : EReal) = sAt m c a := by
  unfold iblk sAt
  rw [View.read_apply]
  show V m c main_v4 _ = V m c main_v4 _
  congr 1
  funext d
  apply Fin.ext
  match d with
  | ⟨0, _⟩ => show win0_2.index t 0 * 1024 + 1 * r.val = a.val; rw [(block_index t).2.2.1, ha]; omega

/-- Entry k of the column scores' block at point t is entry 1024·(t % 16) + k of the scores. -/
theorem scol_block (c : Dev nD) (t : Fin cfg0.N) (k : Fin 1024) (b : Fin 16384) (hb : b.val = 1024 * (t.val % 16) + k.val) :
    ((iblk m c 3 t : Vec Ideal S1024 .f32) (ix1 k) : EReal) = sAt m c b := by
  unfold iblk sAt
  rw [View.read_apply]
  show V m c main_v4 _ = V m c main_v4 _
  congr 1
  funext d
  apply Fin.ext
  match d with
  | ⟨0, _⟩ => show win0_3.index t 0 * 1024 + 1 * k.val = b.val; rw [(block_index t).2.2.2, hb]; omega

/-! ## One point adds one tile -/

/-- The tile the point numbered t covers: row block t / 16 against column block t % 16 (the row block is taken
    modulo 16 so that the expression has a meaning for every natural number; below 256 that changes nothing). -/
def tileAt (c : Dev nD) (t : ℕ) : EReal :=
  Cert.Spec.tileSum (sAt m c) (pAt m c) (nAt m c) ⟨t / 16 % 16, Nat.mod_lt _ (by decide)⟩ ⟨t % 16, Nat.mod_lt _ (by decide)⟩

/-- The body's sum term on the four blocks of point t adds that point's tile to what the accumulator held. -/
theorem point_adds_tile (c : Dev nD) (t : Fin cfg0.N) (prev : Vec Ideal S1x1 .f32) (y : S1x1.Idx) :
    (k0_pay2 (F := Ideal) (iblk m c 2 t) (iblk m c 3 t) (iblk m c 0 t) (iblk m c 1 t) prev y : EReal)
      = (prev y : EReal) + tileAt m c t.val := by
  have hN : cfg0.N = 256 := N_0
  have ht : t.val < 256 := hN ▸ t.isLt
  refine (pay2_apply (iblk m c 2 t : Vec Ideal S1024 .f32) (iblk m c 3 t : Vec Ideal S1024 .f32)
    (iblk m c 0 t : Vec Ideal S1024 .f32) (iblk m c 1 t : Vec Ideal S1024 .f32) prev y).trans ?_
  refine congrArg (fun z : EReal => (prev y : EReal) + z) ?_
  unfold tileAt Cert.Spec.tileSum Cert.Spec.pairTerm
  refine Finset.sum_congr rfl fun r _ => Finset.sum_congr rfl fun k _ => ?_
  have ha : (Cert.Spec.rowOf ⟨t.val / 16 % 16, Nat.mod_lt _ (by decide)⟩ r).val = 1024 * (t.val / 16) + r.val := by
    show 1024 * (t.val / 16 % 16) + r.val = _
    omega
  have hb : (Cert.Spec.rowOf ⟨t.val % 16, Nat.mod_lt _ (by decide)⟩ k).val = 1024 * (t.val % 16) + k.val := rfl
  rw [neg_block m c t r _ ha, srow_block m c t r _ ha, pos_block m c t k _ hb, scol_block m c t k _ hb]

/-! ## The accumulator after point n is the first n + 1 tiles added -/

theorem acc_apply (c : Dev nD) : ∀ (n : ℕ) (h : n < cfg0.N) (y : S1x1.Idx),
    (acc m c n h y : EReal) = ∑ t ∈ Finset.range (n + 1), tileAt m c t
  | 0, h, y => by
    rw [acc_zero]
    refine (point_adds_tile m c ⟨0, h⟩ (k0_pay1 (F := Ideal)) y).trans ?_
    rw [pay1_apply, zero_add, Finset.sum_range_one]
  | n + 1, h, y => by
    rw [acc_succ]
    refine (point_adds_tile m c ⟨n + 1, h⟩ _ y).trans ?_
    rw [acc_apply c n (Nat.lt_of_succ_lt h) y, Finset.sum_range_succ _ (n + 1)]

/-! ## The result array after the run is the accumulator after the last point -/

theorem last_lt : 255 < cfg0.N := by rw [show cfg0.N = 256 from N_0]; decide

/-- The accumulator after the last point, as contents of the 1 × 1 result array (its one block is the array). -/
abbrev lastAcc (c : Dev nD) : Buf (Elt Ideal) ((c : Thread nD τ).loc main_v10) := acc m c 255 last_lt

/-- The output's block index is (0, 0) at every point, and the block is the whole 1 × 1 array. -/
theorem out_index : ∀ t : Fin cfg0.N, win0_4.index t (0 : Fin 2) = 0 ∧ win0_4.index t (1 : Fin 2) = 0
      ∧ win0_4.xsize (grid0.coords t) (0 : Fin 2) = 1 ∧ win0_4.xsize (grid0.coords t) (1 : Fin 2) = 1 :=
  (by decide +kernel : ∀ t : Fin grid0.N, win0_4.index t (0 : Fin 2) = 0 ∧ win0_4.index t (1 : Fin 2) = 0
      ∧ win0_4.xsize (grid0.coords t) (0 : Fin 2) = 1 ∧ win0_4.xsize (grid0.coords t) (1 : Fin 2) = 1)

/-- The one write-back, after point 255, writes the accumulator: block (0, 0) of the 1 × 1 array, read through zero
    offsets, is the array. -/
theorem flushed_eq (c : Dev nD) (t : Fin cfg0.N) (hf : (cfg0.win 4).flush t = true) :
    (dats m 0 c).flushed 4 t = ((cfg0.win 4).blk t).view.read (Elt Ideal) (lastAcc m c) := by
  have hN : cfg0.N = 256 := N_0
  have h255 : t.val = 255 := by have := (flush0_4 t).mp hf; have := t.isLt; omega
  obtain rfl : t = ⟨255, last_lt⟩ := Fin.ext h255
  show (cfg0.win 4).cut (grid0.coords ⟨255, last_lt⟩) ((dats m 0 c).after 4 ⟨255, last_lt⟩) = _
  rw [after_4]
  have hz' : (fun a => win0_4.index ⟨255, last_lt⟩ a * main_v10.ty.shape.size a) = fun _ => 0 := funext fun a => by
    match a with
    | ⟨0, _⟩ => show win0_4.index ⟨255, last_lt⟩ 0 * 1 = 0; rw [(out_index _).1]
    | ⟨1, _⟩ => show win0_4.index ⟨255, last_lt⟩ 1 * 1 = 0; rw [(out_index _).2.1]
  exact (Memref.read_access_unit_zero (Elt Ideal) main_v10 hz' (fun a => by rw [congrFun hz' a]; simp) (lastAcc m c)).symm

/-- So the result array ends holding the accumulator after point 255: that point's block covers the array. -/
theorem final_out (c : Dev nD) : (dats m 0 c).arrAt 4 cfg0.N = lastAcc m c :=
  (dats m 0 c).arrAt_eq_of_cover 4 (lastAcc m c) (flushed_eq m c) fun i =>
    ⟨⟨255, last_lt⟩, (flush0_4 ⟨255, last_lt⟩).mpr rfl, by
      show i ∈ ((View.whole main_v10).slice (win0_4.rect ⟨255, last_lt⟩)).set
      rw [View.set_slice_whole, Rect.mem_set_unit]
      intro a
      have h0 : (i 0 : Nat) < 1 := (i 0).isLt
      have h1 : (i 1 : Nat) < 1 := (i 1).isLt
      obtain ⟨e0, e1, x0, x1⟩ := out_index ⟨255, last_lt⟩
      match a with
      | ⟨0, _⟩ =>
        show win0_4.index ⟨255, last_lt⟩ 0 * win0_4.size 0 ≤ (i 0 : Nat)
          ∧ (i 0 : Nat) < win0_4.index ⟨255, last_lt⟩ 0 * win0_4.size 0 + win0_4.xsize (grid0.coords ⟨255, last_lt⟩) 0
        rw [e0, x0]; omega
      | ⟨1, _⟩ =>
        show win0_4.index ⟨255, last_lt⟩ 1 * win0_4.size 1 ≤ (i 1 : Nat)
          ∧ (i 1 : Nat) < win0_4.index ⟨255, last_lt⟩ 1 * win0_4.size 1 + win0_4.xsize (grid0.coords ⟨255, last_lt⟩) 1
        rw [e1, x1]; omega⟩

/-! ## The 256 tiles added in order are the sum over all pairs -/

/-- After the region the result array holds, at its one index, the sum over all pairs. -/
theorem out_total (c : Dev nD) (y : S1x1.Idx) :
    (((dats m 0 c).arrAt 4 cfg0.N : Vec Ideal S1x1 .f32) y : EReal) = Cert.Spec.pairSum (sAt m c) (pAt m c) (nAt m c) := by
  rw [final_out m c]
  show (acc m c 255 last_lt y : EReal) = _
  rw [acc_apply m c 255 last_lt y, ← Cert.Spec.tiledSum_eq, Finset.sum_range (fun t => tileAt m c t)]
  unfold Cert.Spec.tiledSum tileAt
  refine Finset.sum_congr rfl fun t _ => ?_
  have ht : t.val < 256 := t.isLt
  congr 1
  exact Fin.ext (show t.val / 16 % 16 = t.val / 16 by omega)

end Cert.KernelIdeal.HandValue

end
-- ==== Proof.RefValue.lean ====
/-
  The reference's pair sum, read off its run one operation at a time: the host reduction over both axes of
  the 16384 × 16384 matrix whose (a, b) entry is  1 / (1 + exp(−(s b − s a))) · (n a · p b)  is the sum over
  all pairs of logistic(s b − s a) · (n a · p b): on the extended reals the logistic IS that quotient, and
  the reduction's zero initial value adds nothing.
-/
import proofs.«166591_j1717986918748_1_alg».proof.Proof.RefRead
import proofs.«166591_j1717986918748_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.ReadP
open Idealize.ShloMosaic Idealize.ShloMosaic.ValueIdx

/-- The float word of 1.0 denotes the real one. -/
theorem ofBits_one_f32 : Ideal.ofBits .f32 0x3F800000#32 = (1 : EReal) := by
  simp [Ideal.ofBits, Ideal.ieee, -EReal.coe_mul]; norm_num

/-- Entry (a, b) of the matrix the reduction sums is the pair's term. The row vector of scores spread down the
    rows reads s b at (a, b), the column vector spread across reads s a, so their difference is s b − s a; the
    negative mask is spread as a column (n a) and the positive mask as a row (p b). What is left is
    1 / (1 + exp(−(s b − s a))) · (n a · p b) with every operation the extended reals' own, and the quotient
    is the logistic by definition. -/
theorem v26_entry (x0 : (⟨S16384x2, .f32⟩ : BufTy).Contents (Elt Ideal)) (x1 : (⟨S16384, .i1⟩ : BufTy).Contents (Elt Ideal))
    (a b : Fin 16384) :
    (val_main_v26 (F := Ideal) x0 x1 (ix2 a b) : EReal)
      = Cert.Spec.pairTerm (fun a => (val_main_v4 (F := Ideal) x0 (ix1 a) : EReal)) (fun a => (val_main_v5 (F := Ideal) x1 (ix1 a) : EReal))
          (fun a => (val_main_v7 (F := Ideal) x1 (ix1 a) : EReal)) a b := by
  -- the two broadcasts composed: a row vector keeps the column coordinate, a column vector the row coordinate
  have hrow : idx_main_v10 (idx_main_v12 (ix2 a b)) = ix1 b := funext fun d => by match d with | ⟨0, _⟩ => rfl
  have hcol : idx_main_v11 (idx_main_v13 (ix2 a b)) = ix1 a := funext fun d => by match d with | ⟨0, _⟩ => rfl
  have hn : idx_main_v15 (idx_main_v17 (ix2 a b)) = ix1 a := funext fun d => by match d with | ⟨0, _⟩ => rfl
  have hp : idx_main_v16 (idx_main_v18 (ix2 a b)) = ix1 b := funext fun d => by match d with | ⟨0, _⟩ => rfl
  -- the entry, one operation at a time from the product down to the scores and the masks
  rw [val_main_v26_apply, val_main_v25_apply, val_main_v24_apply, val_main_cst_3_apply, val_main_v23_apply,
    val_main_v22_apply, val_main_cst_2_apply, val_main_v21_apply, val_main_v20_apply, val_main_v19_apply,
    val_main_v18_apply, val_main_v17_apply, val_main_v16_apply, val_main_v15_apply, val_main_v14_apply,
    val_main_v13_apply, val_main_v12_apply, val_main_v11_apply, val_main_v10_apply, hrow, hcol, hn, hp]
  -- on the extended reals: the constant is 1, the quotient is the ideal division, the rest is +, −, ·, exp
  simp only [Ideal.ofBits_def, ofBits_one_f32, Ideal.hostDivf_def, Ideal.addf_def, Ideal.hostUnary_exp_def,
    Ideal.hostNegf_def, Ideal.negf_def, Ideal.subf_def, Ideal.mulf_def]
  rfl

/-- The reference's reduced value is the sum over all pairs of its own scores and masks. -/
theorem ref_pairSum (x0 : (⟨S16384x2, .f32⟩ : BufTy).Contents (Elt Ideal)) (x1 : (⟨S16384, .i1⟩ : BufTy).Contents (Elt Ideal)) (i : S_.Idx) :
    (val_main_v27 (F := Ideal) x0 x1 i : EReal)
      = Cert.Spec.pairSum (fun a => (val_main_v4 (F := Ideal) x0 (ix1 a) : EReal)) (fun a => (val_main_v5 (F := Ideal) x1 (ix1 a) : EReal))
          (fun a => (val_main_v7 (F := Ideal) x1 (ix1 a) : EReal)) := by
  -- the reduction is its initial value, the zero word, plus the sum over every index of the matrix; a sum over
  -- the indices of a square is the double sum over rows and columns
  rw [val_main_v27_apply, val_main_cst_4_apply, Ideal.ofBits_def, Ideal.ofBits_zero_f32, zero_add, sum_idx2]
  -- each entry is the pair's term
  simp only [v26_entry]
  rfl

end Cert.ReferenceIdeal.RefValue

end
-- ==== Proof.Join.lean ====
/-
  Where the two programs meet. Both begin with the same host operations on the same arguments: the scores
  s = x[:,1] − x[:,0], the positive mask p (the labels as floats), the negative mask n = 1 − p and the two
  counts Σ p and Σ n. So the arrays the kernel's region finds are, term for term, the reference's own
  stages of the same arguments. The pair sum is where they differ in form only — 256 tiles accumulated in
  order against one reduction of the whole square — and both are the sum over all pairs. The closing
  arithmetic (the guarded quotient and its complement) is again the same operations on both sides.
-/
import proofs.«166591_j1717986918748_1_alg».proof.Proof.KI.Data
import proofs.«166591_j1717986918748_1_alg».proof.Proof.RefRead
import proofs.«166591_j1717986918748_1_alg».proof.Proof.KI.Tail
import proofs.«166591_j1717986918748_1_alg».proof.Proof.KI.KernelSum
import proofs.«166591_j1717986918748_1_alg».proof.Proof.RefValue
import Idealize.ShloMosaic.Lib.StableHlo.Run
import Idealize.ShloMosaic.Lib.Pipeline.Value
import Idealize.ShloMosaic.Lib.ValueIdx

set_option maxRecDepth 16384

noncomputable section

namespace Cert.Proof.Join

open Idealize.ShloMosaic Idealize.ShloMosaic.TcCoe Idealize.SL.Sem Idealize.ShloMosaic.StableHlo
open Cert.KernelIdeal Cert.KernelIdeal.Gen Cert.KernelIdeal.Hand

variable {F : FTy → Type} [FloatOps F]
variable (m : (ℓ : Loc nD τ sig) → Buf (Elt F) ℓ)

/-! ## The arrays the region finds are the reference's stages of the same arguments -/

/-- The scores: column 1 minus column 0 of the logits. -/
theorem V_scores (c : Dev nD) :
    (V m c main_v4 : (⟨S16384, .f32⟩ : BufTy).Contents (Elt F))
      = Cert.ReferenceIdeal.ReadP.val_main_v4 (F := F) (m ((c.tc : Thread nD τ).loc main_arg0)) := by
  rw [V_eq]; after_results; rfl

/-- The positive mask: the labels as floats. -/
theorem V_pos (c : Dev nD) :
    (V m c main_v5 : (⟨S16384, .f32⟩ : BufTy).Contents (Elt F))
      = Cert.ReferenceIdeal.ReadP.val_main_v5 (F := F) (m ((c.tc : Thread nD τ).loc main_arg1)) := by
  rw [V_eq]; after_results; rfl

/-- The negative mask: one minus the positive mask. -/
theorem V_neg (c : Dev nD) :
    (V m c main_v7 : (⟨S16384, .f32⟩ : BufTy).Contents (Elt F))
      = Cert.ReferenceIdeal.ReadP.val_main_v7 (F := F) (m ((c.tc : Thread nD τ).loc main_arg1)) := by
  rw [V_eq]; after_results; rfl

/-- The count of positives. -/
theorem V_numPos (c : Dev nD) :
    (V m c main_v8 : (⟨S_, .f32⟩ : BufTy).Contents (Elt F))
      = Cert.ReferenceIdeal.ReadP.val_main_v8 (F := F) (m ((c.tc : Thread nD τ).loc main_arg1)) := by
  rw [V_eq]; after_results; rfl

/-- The count of negatives. -/
theorem V_numNeg (c : Dev nD) :
    (V m c main_v9 : (⟨S_, .f32⟩ : BufTy).Contents (Elt F))
      = Cert.ReferenceIdeal.ReadP.val_main_v9 (F := F) (m ((c.tc : Thread nD τ).loc main_arg1)) := by
  rw [V_eq]; after_results; rfl

/-! ## The closing arithmetic and the pair sum -/

section Closing

open Idealize.ShloMosaic.ValueIdx
open Cert.KernelIdeal.HandValue

/-- The closing arithmetic meets the reference's last stages once the 1 × 1 array, read as a scalar, is the
    reference's reduced value: the same guarded quotient and complement on both sides. -/
theorem tail_join
    (x0 : (⟨Cert.ReferenceIdeal.S16384x2, .f32⟩ : BufTy).Contents (Elt F)) (x1 : (⟨Cert.ReferenceIdeal.S16384, .i1⟩ : BufTy).Contents (Elt F))
    (ps : (⟨S1x1, .f32⟩ : BufTy).Contents (Elt F))
    (h : (shapeCast S_ ps Facts₀.shapeCasts_S1x1_S_ : (⟨S_, .f32⟩ : BufTy).Contents (Elt F)) = Cert.ReferenceIdeal.ReadP.val_main_v27 (F := F) x0 x1) :
    tailOf (Cert.ReferenceIdeal.ReadP.val_main_v8 (F := F) x1) (Cert.ReferenceIdeal.ReadP.val_main_v9 (F := F) x1) ps
      = Cert.ReferenceIdeal.ReadP.val_main_v33 (F := F) x0 x1 := by
  unfold tailOf
  rw [h]
  rfl

variable (mI : (ℓ : Loc nD τ sig) → Buf (Elt Ideal) ℓ)

/-- On the extended reals the region's 1 × 1 result, read as a scalar, is the reference's reduced value: both are
    the sum over all pairs of the same scores and masks (the kernel's by tiles, the reference's at once). -/
theorem pair_join (c : Dev nD) :
    (shapeCast S_ ((dats mI 0 c).arrAt 4 cfg0.N : (⟨S1x1, .f32⟩ : BufTy).Contents (Elt Ideal)) Facts₀.shapeCasts_S1x1_S_ : (⟨S_, .f32⟩ : BufTy).Contents (Elt Ideal))
      = Cert.ReferenceIdeal.ReadP.val_main_v27 (F := Ideal) (mI ((c.tc : Thread nD τ).loc main_arg0)) (mI ((c.tc : Thread nD τ).loc main_arg1)) := by
  funext i
  have hk : (S1x1.rowMajor (ix2 (0 : Fin 1) (0 : Fin 1))).val = (S_.rowMajor i).val := by
    have h1 : (S1x1.rowMajor (ix2 (0 : Fin 1) (0 : Fin 1))).val < 1 := (S1x1.rowMajor _).isLt
    have h2 : (S_.rowMajor i).val < 1 := (S_.rowMajor i).isLt
    omega
  refine (shapeCast_apply _ Facts₀.shapeCasts_S1x1_S_ i (ix2 (0 : Fin 1) (0 : Fin 1)) hk).trans ?_
  refine (out_total mI c (ix2 (0 : Fin 1) (0 : Fin 1))).trans ?_
  refine ((Cert.ReferenceIdeal.RefValue.ref_pairSum _ _ i).trans ?_).symm
  unfold sAt pAt nAt
  rw [V_scores, V_pos, V_neg]

/-- The kernel's result on the extended reals is the reference's last stage of the same arguments. -/
theorem result_join (c : Dev nD) :
    tailOf (V mI c main_v8) (V mI c main_v9) ((dats mI 0 c).arrAt 4 cfg0.N)
      = Cert.ReferenceIdeal.ReadP.val_main_v33 (F := Ideal) (mI ((c.tc : Thread nD τ).loc main_arg0)) (mI ((c.tc : Thread nD τ).loc main_arg1)) := by
  have h8 := V_numPos mI c
  have h9 := V_numNeg mI c
  rw [show (V mI c main_v8 : (⟨S_, .f32⟩ : BufTy).Contents (Elt Ideal)) = _ from h8,
    show (V mI c main_v9 : (⟨S_, .f32⟩ : BufTy).Contents (Elt Ideal)) = _ from h9]
  exact tail_join _ _ _ (pair_join mI c)

end Closing

end Cert.Proof.Join

end
-- ==== Proof.lean ====
/-
  The pairwise soft-AUC loss: a Pallas kernel against its jnp reference, equal over the extended reals.

  Both programs take logits x (16384 × 2) and boolean labels. With scores s = x[:,1] − x[:,0], the positive mask
  p (the labels as 0 / 1) and the negative mask n = 1 − p, both form the pair sum

      P = Σ_a Σ_b logistic(s b − s a) · (n a · p b)

  over all 16384² pairs, the counts np = Σ p and nn = Σ n, and return 1 − P / (np · nn) when np · nn > 0 and 0
  otherwise. The reference reduces the whole matrix at once. The kernel walks a 16 × 16 grid of 1024 × 1024 tiles
  and keeps one running scalar in its 1 × 1 output block: zeroed at the first point, each point adds its tile's
  double sum (a lane sum per row, then the sum of the row sums), and the block is written back once, after the last
  point. The scores array is handed to the kernel twice (its row blocks and its column blocks), each window holding
  half of it.

  What is proved, and where:
  * the two kernel programs run to the end without a fault and leave their arguments alone: the body's
    obligation at every grid point (KI/Body.lean over the two whole-body runs) and the launch — @main as host
    operations, the region, host operations (KI/Launch.lean); the word-level program is the same text (K/);
  * the reference runs and its result is its operations' composed term (RefRun.lean), read one operation at a
    time (RefRead.lean);
  * on the extended reals the accumulator after the last point is the sum over all pairs (KI/KernelSum.lean over
    KI/PayloadAt.lean and the tiling law of SpecLaws.lean), and so is the reference's reduction (RefValue.lean):
    the logistic IS 1 / (1 + exp(−x)) there, and regrouping a finite sum of extended reals changes nothing —
    no finiteness of the inputs is used;
  * the prologue and the closing arithmetic are the same operations on both sides (Join.lean).
  The idealization rewrote nothing, so "preserves" has nothing to state.
-/
import proofs.«166591_j1717986918748_1_alg».proof.Defs
import proofs.«166591_j1717986918748_1_alg».proof.Proof.Gen.Kernel
import proofs.«166591_j1717986918748_1_alg».proof.Proof.Gen.KernelIdeal
import proofs.«166591_j1717986918748_1_alg».proof.Proof.Gen.ReferenceIdeal
import proofs.«166591_j1717986918748_1_alg».proof.Proof.Gen.Pre_finite_inputs
import proofs.«166591_j1717986918748_1_alg».proof.Proof.K.Body
import proofs.«166591_j1717986918748_1_alg».proof.Proof.K.Launch
import proofs.«166591_j1717986918748_1_alg».proof.Proof.KI.Body
import proofs.«166591_j1717986918748_1_alg».proof.Proof.KI.Launch
import proofs.«166591_j1717986918748_1_alg».proof.Proof.RefRun
import proofs.«166591_j1717986918748_1_alg».proof.Proof.Join
import Idealize.ShloMosaic.Adequacy
import Idealize.ShloMosaic.Init

noncomputable section

namespace Cert.Proof

open Idealize.ShloMosaic Idealize.SL.Sem

namespace Claims

/-- The word-level kernel program runs, and its arguments end as they began. -/
theorem frame_k : Cert.frame_Kernel := fun m ρ _ =>
  (θ_run Cert.Kernel.defs _ _).mono (fun _ h c => (h c).2)
    (Cert.Kernel.Hand.run_main (F := Bits) m (Cert.Kernel.Hand.body_obligation (F := Bits) m) ρ)

/-- The idealized kernel program runs, and its arguments end as they began. -/
theorem frame_ki : Cert.frame_KernelIdeal := fun m ρ _ =>
  (θ_run Cert.KernelIdeal.defs _ _).mono (fun _ h c => (h c).2)
    (Cert.KernelIdeal.Hand.run_main (F := Ideal) m (Cert.KernelIdeal.Hand.body_obligation (F := Ideal) m) ρ)

/-- The reference runs, and its arguments end as they began: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the logits and the labels both programs end with the same scalar: the kernel's
    closing arithmetic over its accumulated pair sum, which is the reference's last stage of the same arguments. -/
theorem algebraic : Cert.algebraic_KernelIdeal_ReferenceIdeal := by
  intro m ρ m' ρ' _ hagree
  refine ⟨fun c => Cert.KernelIdeal.Hand.tailOf (Cert.KernelIdeal.Hand.V m c Cert.KernelIdeal.main_v8)
      (Cert.KernelIdeal.Hand.V m c Cert.KernelIdeal.main_v9)
      ((Cert.KernelIdeal.Hand.dats m 0 c).arrAt 4 Cert.KernelIdeal.cfg0.N),
    Cert.KernelIdeal.Hand.run_main (F := Ideal) m (Cert.KernelIdeal.Hand.body_obligation (F := Ideal) m) ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2, Cert.ReferenceIdeal.ReadP.val_main_v33_eq]
  exact (Cert.Proof.Join.result_join m c).symm

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
